-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1000 : Shape := ⟨2, ![32768, 1000]⟩
abbrev S1000 : Shape := ⟨1, ![1000]⟩
abbrev S32768 : Shape := ⟨1, ![32768]⟩
abbrev S_ : Shape := ⟨0, ![]⟩

class Facts : Prop where
  bcast_S_S32768x1000 : S_.BroadcastsInDim S32768x1000 (![] : Fin 0 → Fin S32768x1000.rank)
  reducesTo_S32768x1000_S_d0_1 : S32768x1000.ReducesTo [0, 1] S_
  h_S_ : 0 < S_.numel
  bcast_S_S1000 : S_.BroadcastsInDim S1000 (![] : Fin 0 → Fin S1000.rank)
  reducesTo_S1000_S_d0 : S1000.ReducesTo [0] S_
  bcast_S_S32768 : S_.BroadcastsInDim S32768 (![] : Fin 0 → Fin S32768.rank)
  reducesTo_S32768_S_d0 : S32768.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S32768x1000 .f32) (main_arg1 : FVec F S1000 .f32) (main_arg2 : IVec S32768 32) : IVec S_ 1 :=
  let main_v0 : FVec F S32768x1000 .f32 := Host.absf main_arg0
  let main_cst : FVec F S_ .f32 := constant S_ .f32 0x7F800000#32
  let main_v1 : FVec F S32768x1000 .f32 := broadcastInDim S32768x1000 ![] bcast_S_S32768x1000 main_cst
  let main_v2 : IVec S32768x1000 1 := cmpf .olt main_v0 main_v1
  let main_c : IVec S_ 1 := constantI S_ 1 1#1
  let main_v3 : IVec S_ 1 := (fun x v => Host.reduce IntOp.andi x v reducesTo_S32768x1000_S_d0_1 h_S_) main_v2 main_c
  let main_v4 : FVec F S1000 .f32 := Host.absf main_arg1
  let main_cst_0 : FVec F S_ .f32 := constant S_ .f32 0x7F800000#32
  let main_v5 : FVec F S1000 .f32 := broadcastInDim S1000 ![] bcast_S_S1000 main_cst_0
  let main_v6 : IVec S1000 1 := cmpf .olt main_v4 main_v5
  let main_c_1 : IVec S_ 1 := constantI S_ 1 1#1
  let main_v7 : IVec S_ 1 := (fun x v => Host.reduce IntOp.andi x v reducesTo_S1000_S_d0 h_S_) main_v6 main_c_1
  let main_v8 : IVec S_ 1 := andi main_v3 main_v7
  let main_c_2 : IVec S_ 32 := constantI S_ 32 0#32
  let main_v9 : IVec S32768 32 := broadcastInDim S32768 ![] bcast_S_S32768 main_c_2
  let main_v10 : IVec S32768 1 := cmpi .sge main_arg2 main_v9
  let main_c_3 : IVec S_ 1 := constantI S_ 1 1#1
  let main_v11 : IVec S_ 1 := (fun x v => Host.reduce IntOp.andi x v reducesTo_S32768_S_d0 h_S_) main_v10 main_c_3
  let main_v12 : IVec S_ 1 := andi main_v8 main_v11
  let main_c_4 : IVec S_ 32 := constantI S_ 32 1000#32
  let main_v13 : IVec S32768 32 := broadcastInDim S32768 ![] bcast_S_S32768 main_c_4
  let main_v14 : IVec S32768 1 := cmpi .slt main_arg2 main_v13
  let main_c_5 : IVec S_ 1 := constantI S_ 1 1#1
  let main_v15 : IVec S_ 1 := (fun x v => Host.reduce IntOp.andi x v reducesTo_S32768_S_d0 h_S_) main_v14 main_c_5
  fn_part1 (F := F) main_v12 main_v15
-- ==== Kernel.lean ====
abbrev S32768x1000 : Shape := ⟨2, ![32768, 1000]⟩
abbrev S1000 : Shape := ⟨1, ![1000]⟩
abbrev S32768 : Shape := ⟨1, ![32768]⟩
abbrev S32768x1 : Shape := ⟨2, ![32768, 1]⟩
abbrev S1x1000 : Shape := ⟨2, ![1, 1000]⟩
abbrev S16x1x1 : Shape := ⟨3, ![16, 1, 1]⟩
abbrev S2048x1000 : Shape := ⟨2, ![2048, 1000]⟩
abbrev S2048x1 : Shape := ⟨2, ![2048, 1]⟩
abbrev S1x1x1 : Shape := ⟨3, ![1, 1, 1]⟩
abbrev S1x1 : Shape := ⟨2, ![1, 1]⟩
abbrev S256x1000 : Shape := ⟨2, ![256, 1000]⟩
abbrev S256x1 : Shape := ⟨2, ![256, 1]⟩
abbrev S256 : Shape := ⟨1, ![256]⟩
abbrev S1 : Shape := ⟨1, ![1]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S32768x1000, .f32⟩
  | .hbm, ⟨1, _⟩ => ⟨S1000, .f32⟩
  | .hbm, ⟨2, _⟩ => ⟨S32768, .i32⟩
  | .hbm, ⟨3, _⟩ => ⟨S32768x1, .i32⟩
  | .hbm, ⟨4, _⟩ => ⟨S1x1000, .f32⟩
  | .hbm, ⟨5, _⟩ => ⟨S16x1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S2048x1000, .f32⟩
  | .local _ .vmem, ⟨1, _⟩ => ⟨S2048x1000, .f32⟩
  | .local _ .vmem, ⟨2, _⟩ => ⟨S1x1000, .f32⟩
  | .local _ .vmem, ⟨3, _⟩ => ⟨S2048x1, .i32⟩
  | .local _ .vmem, ⟨4, _⟩ => ⟨S2048x1, .i32⟩
  | .local _ .vmem, ⟨5, _⟩ => ⟨S1x1x1, .f32⟩
  | .local _ .vmem, ⟨6, _⟩ => ⟨S1x1x1, .f32⟩
  | _, _ => ⟨S32768x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c256_i32 : BitVec 32 := 256#32
  let v3 : BitVec 32 := Scalar.muli c0_i32 c256_i32
  v3
def k0_off1 (c0_i32 : BitVec 32) : Fin 2 → Nat :=
  let c256_i32 : BitVec 32 := 256#32
  let v3 : BitVec 32 := Scalar.muli c0_i32 c256_i32
  let v4 : BitVec 32 := v3
  let v5 : Index := Scalar.indexCast v4
  let c0_1 : Index := 0#32
  ![v5.toNat, 0]
def k0_off2 (c0_i32 : BitVec 32) : Fin 2 → Nat :=
  let c256_i32 : BitVec 32 := 256#32
  let v3 : BitVec 32 := Scalar.muli c0_i32 c256_i32
  let v4 : BitVec 32 := v3
  let v7 : Index := Scalar.indexCast v4
  let c0_2 : Index := 0#32
  ![v7.toNat, 0]
def k0_mult2 : BitVec 32 :=
  let c1_i32 : BitVec 32 := 1#32
  let c256_i32_10 : BitVec 32 := 256#32
  let v37 : BitVec 32 := Scalar.muli c1_i32 c256_i32_10
  v37
def k0_mult3 : BitVec 32 :=
  let c2_i32 : BitVec 32 := 2#32
  let c256_i32_20 : BitVec 32 := 256#32
  let v71 : BitVec 32 := Scalar.muli c2_i32 c256_i32_20
  v71
def k0_mult4 : BitVec 32 :=
  let c3_i32 : BitVec 32 := 3#32
  let c256_i32_30 : BitVec 32 := 256#32
  let v105 : BitVec 32 := Scalar.muli c3_i32 c256_i32_30
  v105
def k0_mult5 : BitVec 32 :=
  let c4_i32 : BitVec 32 := 4#32
  let c256_i32_40 : BitVec 32 := 256#32
  let v139 : BitVec 32 := Scalar.muli c4_i32 c256_i32_40
  v139
def k0_mult6 : BitVec 32 :=
  let c5_i32 : BitVec 32 := 5#32
  let c256_i32_50 : BitVec 32 := 256#32
  let v173 : BitVec 32 := Scalar.muli c5_i32 c256_i32_50
  v173
def k0_mult7 : BitVec 32 :=
  let c6_i32 : BitVec 32 := 6#32
  let c256_i32_60 : BitVec 32 := 256#32
  let v207 : BitVec 32 := Scalar.muli c6_i32 c256_i32_60
  v207
def k0_mult8 : BitVec 32 :=
  let c7_i32 : BitVec 32 := 7#32
  let c256_i32_70 : BitVec 32 := 256#32
  let v241 : BitVec 32 := Scalar.muli c7_i32 c256_i32_70
  v241
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32768_S32768x1 : S32768.ShapeCasts S32768x1
  shapeCasts_S1000_S1x1000 : S1000.ShapeCasts S1x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  h_S256x1000 : 0 < S256x1000.numel
  h_S256x1 : 0 < S256x1.numel
  shapeCasts_S256x1_S256x1 : S256x1.ShapeCasts S256x1
  iota_S256x1000_d1_w32 : S256x1000.Iotas .tc 32 [1]
  broadcasts_S256x1_S256x1000 : S256x1.Broadcasts S256x1000
  broadcasts_S1x1000_S256x1000 : S1x1000.Broadcasts S256x1000
  reduces_S256x1000_S256 : S256x1000.Reduces [1] S256
  shapeCasts_S256_S256x1 : S256.ShapeCasts S256x1
  reduces_S256x1_S1 : S256x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S16x1x1_S_d0_1_2 : S16x1x1.ReducesTo [0, 1, 2] S_
  h_S_ : 0 < S_.numel
  hrank0 : 0 < grid0.rank
  k0_mult1_dvd : 256 ∣ k0_mult1.toNat
  k0_off1_inb : ∀ (r : Fin 8), ∀ a, (k0_off1 (BitVec.ofNat 32 r.val)) a + S256x1000.size a ≤ S2048x1000.size a
  k0_off2_inb : ∀ (r : Fin 8), ∀ a, (k0_off2 (BitVec.ofNat 32 r.val)) a + S256x1.size a ≤ S2048x1.size a
  k0_mult2_dvd : 256 ∣ k0_mult2.toNat
  k0_mult3_dvd : 256 ∣ k0_mult3.toNat
  k0_mult4_dvd : 256 ∣ k0_mult4.toNat
  k0_mult5_dvd : 256 ∣ k0_mult5.toNat
  k0_mult6_dvd : 256 ∣ k0_mult6.toNat
  k0_mult7_dvd : 256 ∣ k0_mult7.toNat
  k0_mult8_dvd : 256 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1000.size a ≤ S32768x1000.size a
  hwx0_0 : ∀ i : grid0.Coords, EltTy.bits .f32 = 32 ∨ (Rect.block (s := S32768x1000) S2048x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1000.size a ≤ S1x1000.size a
  hwx0_1 : ∀ i : grid0.Coords, EltTy.bits .f32 = 32 ∨ (Rect.block (s := S1x1000) S1x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S32768x1.size a
  hwx0_2 : ∀ i : grid0.Coords, EltTy.bits .i32 = 32 ∨ (Rect.block (s := S32768x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S16x1x1.size a
  hwx0_3 : ∀ i : grid0.Coords, EltTy.bits .f32 = 32 ∨ (Rect.block (s := S16x1x1) S1x1x1.size (cc0_transform_3 i) (hinb0_3 i)).WholeWords (EltTy.packing .f32)

variable [Facts₀]

abbrev win0_0 : Pipeline.Window sig grid0 :=
  Pipeline.Window.ofSpec (Memref.whole main_arg0) S2048x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1000 : Shape := ⟨2, ![32768, 1000]⟩
abbrev S1000 : Shape := ⟨1, ![1000]⟩
abbrev S32768 : Shape := ⟨1, ![32768]⟩
abbrev S_ : Shape := ⟨0, ![]⟩
abbrev S32768x1 : Shape := ⟨2, ![32768, 1]⟩
abbrev S32768x2 : Shape := ⟨2, ![32768, 2]⟩

abbrev nBuf : Space → Nat
  | .hbm => 73
  | .vmem => 0
  | .smem => 0
  | _ => 0

abbrev bufTy : (tb : Table) → Fin (tcTables nBuf tb) → BufTy
  | .hbm, ⟨0, _⟩ => ⟨S32768x1000, .f32⟩
  | .hbm, ⟨1, _⟩ => ⟨S1000, .f32⟩
  | .hbm, ⟨2, _⟩ => ⟨S32768, .i32⟩
  | .hbm, ⟨3, _⟩ => ⟨S32768, .i32⟩
  | .hbm, ⟨4, _⟩ => ⟨S_, .i32⟩
  | .hbm, ⟨5, _⟩ => ⟨S32768, .i32⟩
  | .hbm, ⟨6, _⟩ => ⟨S32768, .i1⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S32768, .i32⟩
  | .hbm, ⟨11, _⟩ => ⟨S32768x1, .i32⟩
  | .hbm, ⟨12, _⟩ => ⟨S32768, .f32⟩
  | .hbm, ⟨13, _⟩ => ⟨S32768, .f32⟩
  | .hbm, ⟨14, _⟩ => ⟨S_, .i32⟩
  | .hbm, ⟨15, _⟩ => ⟨S32768, .i32⟩
  | .hbm, ⟨16, _⟩ => ⟨S32768, .i1⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S32768, .i32⟩
  | .hbm, ⟨21, _⟩ => ⟨S_, .i32⟩
  | .hbm, ⟨22, _⟩ => ⟨S32768, .i32⟩
  | .hbm, ⟨23, _⟩ => ⟨S32768, .i1⟩
  | .hbm, ⟨24, _⟩ => ⟨S_, .i32⟩
  | .hbm, ⟨25, _⟩ => ⟨S32768, .i32⟩
  | .hbm, ⟨26, _⟩ => ⟨S32768, .i32⟩
  | .hbm, ⟨27, _⟩ => ⟨S32768, .i32⟩
  | .hbm, ⟨28, _⟩ => ⟨S32768x1, .i32⟩
  | .hbm, ⟨29, _⟩ => ⟨S32768x1, .i32⟩
  | .hbm, ⟨30, _⟩ => ⟨S32768x2, .i32⟩
  | .hbm, ⟨31, _⟩ => ⟨S32768x1000, .f32⟩
  | .hbm, ⟨32, _⟩ => ⟨S_, .f32⟩
  | .hbm, ⟨33, _⟩ => ⟨S32768x1000, .f32⟩
  | .hbm, ⟨34, _⟩ => ⟨S32768x1000, .f32⟩
  | .hbm, ⟨35, _⟩ => ⟨S_, .f32⟩
  | .hbm, ⟨36, _⟩ => ⟨S32768, .f32⟩
  | .hbm, ⟨37, _⟩ => ⟨S_, .f32⟩
  | .hbm, ⟨38, _⟩ => ⟨S32768, .f32⟩
  | .hbm, ⟨39, _⟩ => ⟨S32768, .f32⟩
  | .hbm, ⟨40, _⟩ => ⟨S32768x1, .f32⟩
  | .hbm, ⟨41, _⟩ => ⟨S32768x1000, .f32⟩
  | .hbm, ⟨42, _⟩ => ⟨S32768x1000, .f32⟩
  | .hbm, ⟨43, _⟩ => ⟨S32768x1000, .f32⟩
  | .hbm, ⟨44, _⟩ => ⟨S_, .f32⟩
  | .hbm, ⟨45, _⟩ => ⟨S32768, .f32⟩
  | .hbm, ⟨46, _⟩ => ⟨S32768x1, .f32⟩
  | .hbm, ⟨47, _⟩ => ⟨S32768x1, .f32⟩
  | .hbm, ⟨48, _⟩ => ⟨S32768x1000, .f32⟩
  | .hbm, ⟨49, _⟩ => ⟨S32768x1000, .f32⟩
  | .hbm, ⟨50, _⟩ => ⟨S_, .i32⟩
  | .hbm, ⟨51, _⟩ => ⟨S32768, .i32⟩
  | .hbm, ⟨52, _⟩ => ⟨S32768, .i1⟩
  | .hbm, ⟨53, _⟩ => ⟨S_, .i32⟩
  | .hbm, ⟨54, _⟩ => ⟨S32768, .i32⟩
  | .hbm, ⟨55, _⟩ => ⟨S32768, .i32⟩
  | .hbm, ⟨56, _⟩ => ⟨S32768, .i32⟩
  | .hbm, ⟨57, _⟩ => ⟨S_, .i32⟩
  | .hbm, ⟨58, _⟩ => ⟨S32768, .i32⟩
  | .hbm, ⟨59, _⟩ => ⟨S32768, .i1⟩
  | .hbm, ⟨60, _⟩ => ⟨S_, .i32⟩
  | .hbm, ⟨61, _⟩ => ⟨S32768, .i32⟩
  | .hbm, ⟨62, _⟩ => ⟨S32768, .i32⟩
  | .hbm, ⟨63, _⟩ => ⟨S32768, .i32⟩
  | .hbm, ⟨64, _⟩ => ⟨S32768x1, .i32⟩
  | .hbm, ⟨65, _⟩ => ⟨S32768x1, .i32⟩
  | .hbm, ⟨66, _⟩ => ⟨S32768x2, .i32⟩
  | .hbm, ⟨67, _⟩ => ⟨S32768, .f32⟩
  | .hbm, ⟨68, _⟩ => ⟨S32768, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S32768x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_call0_cst : Ref sig .tc := ⟨.hbm, 35, rfl⟩
abbrev main_call0_v0 : Ref sig .tc := ⟨.hbm, 36, rfl⟩
abbrev main_call0_cst_0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_cst_1 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_c_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_7 : Ref sig .tc := ⟨.hbm, 57, rfl⟩
abbrev main_v31 : Ref sig .tc := ⟨.hbm, 58, rfl⟩
abbrev main_v32 : Ref sig .tc := ⟨.hbm, 59, rfl⟩
abbrev main_c_8 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_9 : Ref sig .tc := ⟨.hbm, 69, rfl⟩
abbrev main_v41 : Ref sig .tc := ⟨.hbm, 70, rfl⟩
abbrev main_cst_10 : Ref sig .tc := ⟨.hbm, 71, rfl⟩
abbrev main_v42 : Ref sig .tc := ⟨.hbm, 72, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  concatenates_S32768x1_S32768x1_S32768x2_d1 : Shape.Concatenates [S32768x1, S32768x1] S32768x2 1
  bcast_S_S32768x1000 : S_.BroadcastsInDim S32768x1000 (![] : Fin 0 → Fin S32768x1000.rank)
  reducesTo_S32768x1000_S32768_d1 : S32768x1000.ReducesTo [1] S32768
  h_S_ : 0 < S_.numel
  bcast_S32768x1_S32768x1000_0_1 : S32768x1.BroadcastsInDim S32768x1000 (![0, 1] : Fin 2 → Fin S32768x1000.rank)
  reducesTo_S32768_S_d0 : S32768.ReducesTo [0] S_
  gather_S1000_S32768x1_S32768_n_0_n_n_0_1_1_wf : GatherDims.WF S1000 S32768x1 S32768 [] [0] [] [0] [] 1 ![1]
  scatter_S32768x1000_S32768x2_S32768_n_01_01_1_wf : ScatterDims.WF S32768x1000 S32768x2 S32768 [] [0, 1] [0, 1] 1
  gather_S32768x1000_S32768x2_S32768_n_01_n_n_01_1_11_wf : GatherDims.WF S32768x1000 S32768x2 S32768 [] [0, 1] [] [0, 1] [] 1 ![1, 1]

variable [Facts₀]

def gather_S1000_S32768x1_S32768_n_0_n_n_0_1_1 : GatherDims S1000 S32768x1 S32768 where
  offsetDims := []
  collapsedSliceDims := [0]
  operandBatchingDims := []
  startIndicesBatchingDims := []
  startIndexMap := [0]
  indexVectorDim := 1
  sliceSizes := ![1]
  wf := gather_S1000_S32768x1_S32768_n_0_n_n_0_1_1_wf
def scatter_S32768x1000_S32768x2_S32768_n_01_01_1 : ScatterDims S32768x1000 S32768x2 S32768 where
  updateWindowDims := []
  insertedWindowDims := [0, 1]
  scatterDimsToOperandDims := [0, 1]
  indexVectorDim := 1
  wf := scatter_S32768x1000_S32768x2_S32768_n_01_01_1_wf
def gather_S32768x1000_S32768x2_S32768_n_01_n_n_01_1_11 : GatherDims S32768x1000 S32768x2 S32768 where
  offsetDims := []
  collapsedSliceDims := [0, 1]
  operandBatchingDims := []
  startIndicesBatchingDims := []
  startIndexMap := [0, 1]
  indexVectorDim := 1
  sliceSizes := ![1, 1]
  wf := gather_S32768x1000_S32768x2_S32768_n_01_n_n_01_1_11_wf

class Facts : Prop extends Facts₀ where

variable [Facts]
-- ==== Proof.LdamSpec.lean ====
/-
  The margin-adjusted cross-entropy of one row of scores, in the two arrangements in which it is computed, and
  their equality.

  A row holds n scores x k, a margin m k per class and one target class t.  The adjusted, scaled scores are
  s k = 30 · (x k − [k = t] · m k): the margin is taken off the target class only.  With M the largest s k and
  L = log ∑ₖ exp (s k − M), the row's loss is the negated log-softmax at the target, written either as
  (M + L) − s t or as −((s t − M) − L).  On the extended reals the two agree once every s k is a real number:
  then M is a real (a maximum over a non-empty finite set of reals), the sum of exponentials is a positive real, so
  L is a real, and the identity is the ring identity (M + L) − a = −((a − M) − L).  At an infinite score the two
  sides differ (⊤ − ⊤ = ⊥ on one side and its negation on the other), which is why the inputs are assumed finite.
-/
import Idealize.ShloMosaic.PureOps.Ideal
import Idealize.ShloMosaic.PureOps.Ideal.Laws

noncomputable section

namespace Cert.Ldam

open Idealize.ShloMosaic

/-! ## The constants -/

/-- The scale 30.0 as the programs spell it denotes the real 30. -/
theorem ofBits_thirty : Ideal.ofBits .f32 0x41F00000#32 = ((30 : ℝ) : EReal) := by
  simp [Ideal.ofBits, Ideal.ieee, -EReal.coe_mul]; norm_num

/-- The pattern of −∞, from which both programs start a row's maximum, denotes the bottom element. -/
theorem ofBits_negInf : Ideal.ofBits .f32 0xFF800000#32 = (⊥ : EReal) := by
  simp [Ideal.ofBits, Ideal.ieee]

/-! ## Sums and maxima of reals inside the extended reals -/

/-- A finite sum of reals, taken in the extended reals, is the real sum. -/
theorem coe_sum {ι : Type} (S : Finset ι) (f : ι → ℝ) :
    ∑ k ∈ S, ((f k : ℝ) : EReal) = ((∑ k ∈ S, f k : ℝ) : EReal) := by
  classical
  induction S using Finset.induction_on with
  | empty => simp
  | insert a S ha ih => rw [Finset.sum_insert ha, Finset.sum_insert ha, ih, EReal.coe_add]

/-- The maximum of a row: the fold of max from −∞ over the row's entries. -/
def rowMax {n : Nat} (s : Fin n → EReal) : EReal := (Finset.univ : Finset (Fin n)).fold max ⊥ s

/-- Folding max from −∞ over reals gives −∞ or a real. -/
theorem fold_max_coe {ι : Type} (S : Finset ι) (f : ι → ℝ) :
    S.fold max (⊥ : EReal) (fun k => ((f k : ℝ) : EReal)) = ⊥
      ∨ ∃ M : ℝ, S.fold max (⊥ : EReal) (fun k => ((f k : ℝ) : EReal)) = (M : EReal) := by
  classical
  induction S using Finset.induction_on with
  | empty => left; simp
  | insert a S ha ih =>
    right
    rw [Finset.fold_insert ha]
    rcases ih with h | ⟨M, h⟩
    · exact ⟨f a, by rw [h]; exact max_bot_right _⟩
    · exact ⟨max (f a) M, by rw [h]; exact (EReal.coe_strictMono.monotone.map_max).symm⟩

/-- The maximum of a non-empty row of reals is a real. -/
theorem rowMax_coe {n : Nat} (hn : 0 < n) (f : Fin n → ℝ) :
    ∃ M : ℝ, rowMax (fun k => ((f k : ℝ) : EReal)) = (M : EReal) := by
  rcases fold_max_coe (Finset.univ : Finset (Fin n)) f with h | h
  · exfalso
    have hle : ((f ⟨0, hn⟩ : ℝ) : EReal) ≤ (Finset.univ : Finset (Fin n)).fold max (⊥ : EReal) (fun k => ((f k : ℝ) : EReal)) :=
      (Finset.le_fold_max _).mpr (Or.inr ⟨⟨0, hn⟩, Finset.mem_univ _, le_refl _⟩)
    rw [h] at hle
    exact EReal.coe_ne_bot _ (le_bot_iff.mp hle)
  · exact h

/-! ## The adjusted scores -/

/-- The scaled scores with the margin SUBTRACTED at the target class, zero subtracted elsewhere. -/
def scoreSub {n : Nat} (c : EReal) (x m : Fin n → EReal) (t : Fin n) (k : Fin n) : EReal :=
  c * (x k - (if k = t then m k else 0))

/-- The scaled scores with the NEGATED target margin ADDED at the target class, zero added elsewhere. -/
def scoreAdd {n : Nat} (c : EReal) (x m : Fin n → EReal) (t : Fin n) (k : Fin n) : EReal :=
  c * (x k + (if k = t then -(m t) else 0))

/-- The two spellings of the adjusted scores are one function: x − m is x + (−m), and x − 0 is x + 0. -/
theorem scoreSub_eq_scoreAdd {n : Nat} (c : EReal) (x m : Fin n → EReal) (t : Fin n) :
    scoreSub c x m t = scoreAdd c x m t := by
  funext k
  unfold scoreSub scoreAdd
  by_cases h : k = t
  · subst h; simp only [if_true]; rw [sub_eq_add_neg]
  · simp only [if_neg h, sub_zero, add_zero]

/-- With finite scores, finite margins and a real scale every adjusted score is a real. -/
theorem scoreSub_coe {n : Nat} (c : ℝ) (x m : Fin n → EReal) (hx : ∀ k, ∃ r : ℝ, x k = r) (hm : ∀ k, ∃ r : ℝ, m k = r)
    (t : Fin n) (k : Fin n) : ∃ r : ℝ, scoreSub (c : EReal) x m t k = r := by
  obtain ⟨a, ha⟩ := hx k
  obtain ⟨b, hb⟩ := hm k
  unfold scoreSub
  by_cases h : k = t
  · exact ⟨c * (a - b), by rw [if_pos h, ha, hb, ← EReal.coe_sub, ← EReal.coe_mul]⟩
  · exact ⟨c * a, by rw [if_neg h, ha, sub_zero, ← EReal.coe_mul]⟩

/-! ## The row's loss, twice -/

/-- The loss as log-sum-exp minus the target score: (M + log ∑ exp (s − M)) − (the target score). -/
def lossLse {n : Nat} (s : Fin n → EReal) (tv : EReal) : EReal :=
  (rowMax s + Ideal.log (∑ k, Ideal.exp (s k - rowMax s))) - tv

/-- The loss as the negated log-softmax at the target: −((s t − M) − log ∑ exp (s − M)). -/
def lossLogSoftmax {n : Nat} (s : Fin n → EReal) (t : Fin n) : EReal :=
  -((s t - rowMax s) - Ideal.log (∑ k, Ideal.exp (s k - rowMax s)))

/-- The sum over the row of "the score at the target class, zero elsewhere" is the target's score. -/
theorem sum_target {n : Nat} (s : Fin n → EReal) (t : Fin n) :
    ∑ k, (if k = t then s k else 0) = s t := by
  rw [Finset.sum_ite_eq' Finset.univ t s, if_pos (Finset.mem_univ _)]

/-- THE LAW: on a non-empty row of real scores the two arrangements of the loss agree. -/
theorem lossLse_eq_lossLogSoftmax {n : Nat} (hn : 0 < n) (s : Fin n → EReal) (hs : ∀ k, ∃ r : ℝ, s k = r) (t : Fin n) :
    lossLse s (s t) = lossLogSoftmax s t := by
  choose f hf using hs
  obtain rfl : s = fun k => ((f k : ℝ) : EReal) := funext hf
  obtain ⟨M, hM⟩ := rowMax_coe hn f
  unfold lossLse lossLogSoftmax
  rw [hM]
  have he : ∀ k, Ideal.exp (((f k : ℝ) : EReal) - (M : EReal)) = ((Real.exp (f k - M) : ℝ) : EReal) := fun k => by
    rw [← EReal.coe_sub, Ideal.exp_coe]
  simp only [he]
  rw [coe_sum]
  have hD : 0 < ∑ k, Real.exp (f k - M) :=
    Finset.sum_pos (fun k _ => Real.exp_pos _) ⟨⟨0, hn⟩, Finset.mem_univ _⟩
  rw [Ideal.log_coe, if_neg (not_le.mpr hD)]
  rw [← EReal.coe_add, ← EReal.coe_sub, ← EReal.coe_sub, ← EReal.coe_sub, ← EReal.coe_neg]
  congr 1
  ring

end Cert.Ldam

end
-- ==== Proof.LdamMean.lean ====
/-
  The result both programs compute: the mean over the 32768 rows of the row's margin-adjusted cross-entropy.

  Row r has scores x (r, ·), the margins m and a target word; the class the word names is its value as a natural
  number (reduced below 1000, so that the definition is total; under the precondition the word is already below 1000).
  The row's loss is the negated log-softmax, at that class, of the scaled scores with the class's margin taken off.
  The result is (0 + ∑ over the rows of the row's loss) / 32768.

  A program that walks the rows as 16 tiles of 8 chunks of 256 rows adds the same 32768 terms: row
  2048·t + 256·c + q is met once, at tile t, chunk c, position q.
-/
import proofs.«422333_j6305011990635_3_alg».proof.Proof.LdamSpec
import Idealize.ShloMosaic.Lib.ValueIdx
import Idealize.ShloMosaic.Lib.ValueIdxRank1

noncomputable section

namespace Cert.Ldam

open Idealize.ShloMosaic Idealize.ShloMosaic.ValueIdx

abbrev SLogits : Shape := ⟨2, ![32768, 1000]⟩
abbrev SMargins : Shape := ⟨1, ![1000]⟩
abbrev STargets : Shape := ⟨1, ![32768]⟩
abbrev SScalar : Shape := ⟨0, ![]⟩

/-- The class row r's target word names. -/
def classOf (tg : IVec STargets 32) (r : Fin 32768) : Fin 1000 :=
  ⟨(tg (ix1 r)).toNat % 1000, Nat.mod_lt _ (by decide)⟩

/-- A target word below 1000 is the word of the class it names. -/
theorem word_eq_class (tg : IVec STargets 32) (r : Fin 32768) (h : (tg (ix1 r)).toNat < 1000) :
    tg (ix1 r) = BitVec.ofNat 32 (classOf tg r).val := by
  apply BitVec.eq_of_toNat_eq
  rw [BitVec.toNat_ofNat]
  show (tg (ix1 r)).toNat = (tg (ix1 r)).toNat % 1000 % 2 ^ 32
  omega

/-- ... and as a signed number it is the class. -/
theorem word_toInt_class (tg : IVec STargets 32) (r : Fin 32768) (h : (tg (ix1 r)).toNat < 1000) :
    (tg (ix1 r)).toInt = ((classOf tg r).val : ℤ) := by
  rw [BitVec.toInt_eq_toNat_cond]
  show (if 2 * (tg (ix1 r)).toNat < 2 ^ 32 then ((tg (ix1 r)).toNat : ℤ) else _) = (((tg (ix1 r)).toNat % 1000 : ℕ) : ℤ)
  rw [if_pos (by omega)]
  omega

/-- Row r's scores and the margins as functions of the class. -/
abbrev rowOf (x : FVec Ideal SLogits .f32) (r : Fin 32768) : Fin 1000 → EReal := fun k => x (ix2 r k)
abbrev marginOf (m : FVec Ideal SMargins .f32) : Fin 1000 → EReal := fun k => m (ix1 k)

/-- Row r's loss: the negated log-softmax, at the target class, of the scaled scores with the target's margin taken off. -/
def rowLoss (x : FVec Ideal SLogits .f32) (m : FVec Ideal SMargins .f32) (tg : IVec STargets 32) (r : Fin 32768) : EReal :=
  lossLogSoftmax (scoreAdd (Ideal.ofBits .f32 0x41F00000#32) (rowOf x r) (marginOf m) (classOf tg r)) (classOf tg r)

/-- THE RESULT: the mean of the rows' losses. -/
def meanLoss (x : FVec Ideal SLogits .f32) (m : FVec Ideal SMargins .f32) (tg : IVec STargets 32) : FVec Ideal SScalar .f32 :=
  fun _ => Ideal.div (Ideal.ofBits .f32 0x00000000#32 + ∑ r : Fin 32768, rowLoss x m tg r) (Ideal.ofBits .f32 0x47000000#32)

/-- With finite scores and margins the row's loss is also its log-sum-exp form over the scores with the margin
    subtracted, against the score at the target: the two spellings of the scores are one function, every score is a real,
    and on reals the two arrangements of the loss agree. -/
theorem lse_eq_rowLoss (x : FVec Ideal SLogits .f32) (m : FVec Ideal SMargins .f32) (tg : IVec STargets 32) (r : Fin 32768)
    (hx : ∀ i, ∃ a : ℝ, x i = a) (hm : ∀ i, ∃ a : ℝ, m i = a) :
    lossLse (scoreSub (Ideal.ofBits .f32 0x41F00000#32) (rowOf x r) (marginOf m) (classOf tg r))
        (scoreSub (Ideal.ofBits .f32 0x41F00000#32) (rowOf x r) (marginOf m) (classOf tg r) (classOf tg r))
      = rowLoss x m tg r := by
  unfold rowLoss
  rw [← scoreSub_eq_scoreAdd]
  refine lossLse_eq_lossLogSoftmax (by decide) _ (fun k => ?_) _
  rw [ofBits_thirty]
  exact scoreSub_coe 30 _ _ (fun k => hx _) (fun k => hm _) _ k

/-- Sixteen tiles of eight chunks of 256 rows are the 32768 rows, each once. -/
theorem sum_tiles (f : Fin 32768 → EReal) :
    ∑ t : Fin 16, ∑ c : Fin 8, ∑ q : Fin 256, f ⟨2048 * t.val + 256 * c.val + q.val, by omega⟩ = ∑ r : Fin 32768, f r := by
  rw [← (finProdFinEquiv : Fin 16 × Fin 2048 ≃ Fin 32768).sum_comp f, Fintype.sum_prod_type]
  refine Finset.sum_congr rfl fun t _ => ?_
  rw [← (finProdFinEquiv : Fin 8 × Fin 256 ≃ Fin 2048).sum_comp (fun j => f (finProdFinEquiv (t, j))), Fintype.sum_prod_type]
  refine Finset.sum_congr rfl fun c _ => Finset.sum_congr rfl fun q _ => ?_
  congr 1
  apply Fin.ext
  simp only [finProdFinEquiv_apply_val]
  omega

end Cert.Ldam

end
-- ==== Proof.RefIndex.lean ====
/-
  The reference's integer stages at a row: the index words it gathers and scatters by.

  jnp's negative-index convention prints as select (w < 0) (w + n) w on every index word.  A target word below 1000 and a
  row number below 32768 are non-negative as signed numbers, so each select returns the word itself.  The two-column
  index tables of the scatter and of the final gather therefore hold, in row r, the word of r and row r's target word;
  and the gather of the margins at the target words reads, in row r, the margin of the class the word names.
-/
import proofs.«422333_j6305011990635_3_alg».proof.Proof.RefReadPatched
import proofs.«422333_j6305011990635_3_alg».proof.Proof.LdamMean
import Idealize.ShloMosaic.Lib.StableHlo.Predicate
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo.Predicate Cert.Ldam

/-- jnp's wrap of a possibly negative index leaves a word below 2³¹ alone. -/
theorem wrap_small (w n : BitVec 32) (h : w.toNat < 2 ^ 31) :
    Scalar.select (IntOp.cmpi .slt w 0#32) (IntOp.addi w n) w = w := by
  have h0 : IntOp.cmpi .slt w 0#32 = 0#1 := by
    apply eq_zero_of_ne_one
    intro e
    have := (slt_iff_toNat h (by decide)).mp e
    simp at this
  rw [h0, select_zero]

variable (x1 : FVec Ideal S1000 .f32) (x2 : IVec S32768 32)
variable (hT : ∀ r : Fin 32768, (x2 (ix1 r)).toNat < 1000)

/-- The word of row number r is below 2³¹. -/
theorem rowWord_small (r : Fin 32768) : (BitVec.ofNat 32 r.val).toNat < 2 ^ 31 := by
  rw [BitVec.toNat_ofNat]; have := r.isLt; omega

include hT in
/-- The three wrapped copies of the target words are the target words. -/
theorem v5_apply (r : Fin 32768) : val_main_v5 (F := Ideal) x2 (ix1 r) = x2 (ix1 r) := by
  rw [val_main_v5_apply, val_main_v2_apply, val_main_v4_apply, val_main_v1_apply, val_main_c_apply]
  exact wrap_small _ _ (by have := hT r; omega)

include hT in
theorem v18_apply (r : Fin 32768) : val_main_v18 (F := Ideal) x2 (ix1 r) = x2 (ix1 r) := by
  rw [val_main_v18_apply, val_main_v15_apply, val_main_v17_apply, val_main_v14_apply, val_main_c_3_apply]
  exact wrap_small _ _ (by have := hT r; omega)

include hT in
theorem v35_apply (r : Fin 32768) : val_main_v35 (F := Ideal) x2 (ix1 r) = x2 (ix1 r) := by
  rw [val_main_v35_apply, val_main_v32_apply, val_main_v34_apply, val_main_v31_apply, val_main_c_7_apply]
  exact wrap_small _ _ (by have := hT r; omega)

/-- The two wrapped copies of the row numbers are the row numbers' words. -/
theorem v13_apply (r : Fin 32768) : val_main_v13 (F := Ideal) (ix1 r) = BitVec.ofNat 32 r.val := by
  rw [val_main_v13_apply, val_main_v10_apply, val_main_v12_apply, val_main_v9_apply, val_main_c_1_apply, val_main_v0_apply]
  exact wrap_small _ _ (rowWord_small r)

theorem v30_apply (r : Fin 32768) : val_main_v30 (F := Ideal) (ix1 r) = BitVec.ofNat 32 r.val := by
  rw [val_main_v30_apply, val_main_v27_apply, val_main_v29_apply, val_main_v26_apply, val_main_c_5_apply, val_main_v0_apply]
  exact wrap_small _ _ (rowWord_small r)

/-- Row r of a 32768 × 1 column broadcast from a vector reads the vector at r. -/
theorem colIdx (r : Fin 32768) (i : S32768x1.Idx) (hi : (i 0).val = r.val) :
    (fun a : Fin 1 => match a with | ⟨0, _⟩ => (⟨(i 0).val, (i 0).isLt⟩ : Fin 32768)) = (ix1 r : S32768.Idx) := by
  funext a
  match a with
  | ⟨0, _⟩ => exact Fin.ext hi

/-! ## The scatter's index table -/

/-- Column 0 of the scatter's index table, row r: the word of r. -/
theorem v21_col0 (r : Fin 32768) : val_main_v21 (F := Ideal) x2 (ix2 r (0 : Fin 2)) = BitVec.ofNat 32 r.val := by
  unfold val_main_v21
  refine (concatenate_pair_apply_left (t := S32768x2) (s₁ := S32768x1) (s₂ := S32768x1) (1 : Fin 2) _ _ _
    (ix2 r (0 : Fin 2)) rfl (ix2 r (0 : Fin 1)) (fun b => by match b with | ⟨0, _⟩ => rfl | ⟨1, _⟩ => rfl)).trans ?_
  rw [val_main_v19_apply]
  exact (congrArg (val_main_v13 (F := Ideal)) (colIdx r _ rfl)).trans (v13_apply r)

include hT in
/-- Column 1 of the scatter's index table, row r: row r's target word. -/
theorem v21_col1 (r : Fin 32768) : val_main_v21 (F := Ideal) x2 (ix2 r (1 : Fin 2)) = x2 (ix1 r) := by
  unfold val_main_v21
  refine (concatenate_pair_apply_right (t := S32768x2) (s₁ := S32768x1) (s₂ := S32768x1) (1 : Fin 2) _ _ _
    (ix2 r (1 : Fin 2)) rfl rfl (ix2 r (0 : Fin 1))
    (fun b hb => by match b with | ⟨0, _⟩ => rfl | ⟨1, _⟩ => exact absurd rfl hb) rfl).trans ?_
  rw [val_main_v20_apply]
  exact (congrArg (val_main_v18 (F := Ideal) x2) (colIdx r _ rfl)).trans (v18_apply x2 hT r)

/-! ## The final gather's index table -/

theorem v38_col0 (r : Fin 32768) : val_main_v38 (F := Ideal) x2 (ix2 r (0 : Fin 2)) = BitVec.ofNat 32 r.val := by
  unfold val_main_v38
  refine (concatenate_pair_apply_left (t := S32768x2) (s₁ := S32768x1) (s₂ := S32768x1) (1 : Fin 2) _ _ _
    (ix2 r (0 : Fin 2)) rfl (ix2 r (0 : Fin 1)) (fun b => by match b with | ⟨0, _⟩ => rfl | ⟨1, _⟩ => rfl)).trans ?_
  rw [val_main_v36_apply]
  exact (congrArg (val_main_v30 (F := Ideal)) (colIdx r _ rfl)).trans (v30_apply r)

include hT in
theorem v38_col1 (r : Fin 32768) : val_main_v38 (F := Ideal) x2 (ix2 r (1 : Fin 2)) = x2 (ix1 r) := by
  unfold val_main_v38
  refine (concatenate_pair_apply_right (t := S32768x2) (s₁ := S32768x1) (s₂ := S32768x1) (1 : Fin 2) _ _ _
    (ix2 r (1 : Fin 2)) rfl rfl (ix2 r (0 : Fin 1))
    (fun b hb => by match b with | ⟨0, _⟩ => rfl | ⟨1, _⟩ => exact absurd rfl hb) rfl).trans ?_
  rw [val_main_v37_apply]
  exact (congrArg (val_main_v35 (F := Ideal) x2) (colIdx r _ rfl)).trans (v35_apply x2 hT r)

/-! ## The margins gathered at the target words -/

include hT in
/-- The gathered margin of row r is the margin of the class row r's target word names. -/
theorem v7_apply (r : Fin 32768) : val_main_v7 (F := Ideal) x1 x2 (ix1 r) = x1 (ix1 (classOf x2 r)) := by
  unfold val_main_v7
  have e1 : (ix1 r : S32768.Idx) = Shape.Idx.ofFin r := by
    funext a; match a with | ⟨0, _⟩ => exact Fin.ext rfl
  rw [e1]
  refine (gather_take gather_S1000_S32768x1_S32768_n_0_n_n_0_1_1 rfl rfl rfl rfl x1 (val_main_v6 (F := Ideal) x2) r (by decide)).trans ?_
  refine congrArg x1 ?_
  funext a
  match a with
  | ⟨0, _⟩ =>
    apply Fin.ext
    show min (val_main_v6 (F := Ideal) x2 (ixP r)).toInt.toNat (1000 - 1) = (classOf x2 r).val
    have e6 : val_main_v6 (F := Ideal) x2 (ixP r) = x2 (ix1 r) := by
      rw [val_main_v6_apply]
      exact (congrArg (val_main_v5 (F := Ideal) x2) (colIdx r _ rfl)).trans (v5_apply x2 hT r)
    rw [e6, word_toInt_class x2 r (hT r)]
    have := (classOf x2 r).isLt
    simp only [Int.toNat_natCast]
    omega

end Cert.ReferenceIdeal.RefValue

end
-- ==== Proof.LibElemOps.lean ====
/-
  Element gathers and element scatter-adds of a matrix, read at an index.

  `x[rows, cols]` of an [N, C] matrix with one (row, column) pair of start words per result element (start indices
  [E, 2], result [E]): result element e is the matrix at (the row word of e, the column word of e), each read signed
  and clamped into its axis.  The accumulating scatter of [E] updates into an [N, C] operand by one (row, column) pair
  of destination words per update (indices [E, 2]): operand element (n, c) gains the sum of the updates whose pair,
  read signed and NOT clamped, is (n, c); an update whose pair is outside the matrix is dropped.
-/
import Idealize.ShloMosaic.PureOps.Ideal
import Idealize.ShloMosaic.Lib.ValueIdx

noncomputable section

namespace Idealize.ShloMosaic.ElemOps

open Idealize.ShloMosaic Idealize.ShloMosaic.ValueIdx

/-- The dimension numbers of an element gather: operand [N, C], start indices [E, 2], result [E]. -/
abbrev elemGather (N C E : Nat)
    (wf : GatherDims.WF ⟨2, ![N, C]⟩ ⟨2, ![E, 2]⟩ ⟨1, ![E]⟩ [] [0, 1] [] [0, 1] [] 1 ![1, 1]) :
    GatherDims ⟨2, ![N, C]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- THE ELEMENT GATHER READ AT e: the matrix at the clamped (row word, column word) of e. -/
theorem elemGather_apply {α : Type} {N C E w : Nat} (hN : 0 < N) (hC : 0 < C)
    (wf : GatherDims.WF ⟨2, ![N, C]⟩ ⟨2, ![E, 2]⟩ ⟨1, ![E]⟩ [] [0, 1] [] [0, 1] [] 1 ![1, 1])
    (x : (⟨2, ![N, C]⟩ : Shape).Idx → α) (idx : IVec ⟨2, ![E, 2]⟩ w) (e : Fin E) :
    Host.gather (elemGather N C E wf) x idx (ix1 e)
      = x (ix2 (⟨min (idx (ix2 e (0 : Fin 2))).toInt.toNat (N - 1), by omega⟩ : Fin N)
               (⟨min (idx (ix2 e (1 : Fin 2))).toInt.toNat (C - 1), by omega⟩ : Fin C)) := by
  unfold Host.gather
  congr 1
  funext a
  refine Fin.ext ?_
  match a with
  | ⟨0, _⟩ =>
    show (elemGather N C E wf).start (ix1 e) idx 0 + (elemGather N C E wf).batchCoord (ix1 e) 0
      + (elemGather N C E wf).offCoord (ix1 e) 0 = _
    rw [GatherDims.batchCoord_eq_zero _ _ _ List.not_mem_nil,
      GatherDims.offCoord_eq_zero _ _ _ (fun h => ((GatherDims.mem_sKept _ _).mp h).1 (show (0 : Fin 2) ∈ ([0, 1] : List (Fin 2)) by decide))]
    simp only [Nat.add_zero]
    unfold GatherDims.start
    rw [dif_pos (show (0 : Fin 2) ∈ (elemGather N C E wf).startIndexMap from (show (0 : Fin 2) ∈ ([0, 1] : List (Fin 2)) by decide))]
    have hsi : (elemGather N C E wf).siIdx (ix1 e) ⟨List.idxOf (0 : Fin 2) (elemGather N C E wf).startIndexMap,
        List.idxOf_lt_length_iff.2 (show (0 : Fin 2) ∈ ([0, 1] : List (Fin 2)) by decide)⟩ = ix2 e (0 : Fin 2) := by
      funext b; refine Fin.ext ?_
      match b with
      | ⟨0, _⟩ => rfl
      | ⟨1, _⟩ => rfl
    rw [hsi]
    rfl
  | ⟨1, _⟩ =>
    show (elemGather N C E wf).start (ix1 e) idx 1 + (elemGather N C E wf).batchCoord (ix1 e) 1
      + (elemGather N C E wf).offCoord (ix1 e) 1 = _
    rw [GatherDims.batchCoord_eq_zero _ _ _ List.not_mem_nil,
      GatherDims.offCoord_eq_zero _ _ _ (fun h => ((GatherDims.mem_sKept _ _).mp h).1 (show (1 : Fin 2) ∈ ([0, 1] : List (Fin 2)) by decide))]
    simp only [Nat.add_zero]
    unfold GatherDims.start
    rw [dif_pos (show (1 : Fin 2) ∈ (elemGather N C E wf).startIndexMap from (show (1 : Fin 2) ∈ ([0, 1] : List (Fin 2)) by decide))]
    have hsi : (elemGather N C E wf).siIdx (ix1 e) ⟨List.idxOf (1 : Fin 2) (elemGather N C E wf).startIndexMap,
        List.idxOf_lt_length_iff.2 (show (1 : Fin 2) ∈ ([0, 1] : List (Fin 2)) by decide)⟩ = ix2 e (1 : Fin 2) := by
      funext b; refine Fin.ext ?_
      match b with
      | ⟨0, _⟩ => rfl
      | ⟨1, _⟩ => rfl
    rw [hsi]
    rfl

/-- The dimension numbers of an element scatter: operand [N, C], scatter indices [E, 2], updates [E]. -/
abbrev elemScatter (N C E : Nat)
    (wf : ScatterDims.WF ⟨2, ![N, C]⟩ ⟨2, ![E, 2]⟩ ⟨1, ![E]⟩ [] [0, 1] [0, 1] 1) :
    ScatterDims ⟨2, ![N, C]⟩ ⟨2, ![E, 2]⟩ ⟨1, ![E]⟩ where
  updateWindowDims := []
  insertedWindowDims := [0, 1]
  scatterDimsToOperandDims := [0, 1]
  indexVectorDim := 1
  wf := wf

/-- On the row axis an element scatter's landing coordinate (start plus window) of update p is the row word of p
    read signed: the axis is in the index map and is an inserted axis (window coordinate 0). -/
theorem elemScatter_land0 {N C E w : Nat}
    (wf : ScatterDims.WF ⟨2, ![N, C]⟩ ⟨2, ![E, 2]⟩ ⟨1, ![E]⟩ [] [0, 1] [0, 1] 1)
    (idx : IVec ⟨2, ![E, 2]⟩ w) (p : Fin E) :
    (elemScatter N C E wf).start (ix1 p) idx 0 + ((elemScatter N C E wf).window (ix1 p) 0 : ℤ)
      = (idx (ix2 p (0 : Fin 2))).toInt := by
  have hw : (elemScatter N C E wf).window (ix1 p) 0 = 0 := by
    unfold ScatterDims.window
    rw [dif_neg (show (0 : Fin 2) ∉ Shape.kept (⟨2, ![N, C]⟩ : Shape) ([0, 1] : List (Fin 2)) by simp [Shape.kept])]
  rw [hw]
  unfold ScatterDims.start
  rw [dif_pos (show (0 : Fin 2) ∈ ([0, 1] : List (Fin 2)) by decide)]
  have hsi : (elemScatter N C E wf).siIdx (ix1 p) ⟨List.idxOf (0 : Fin 2) (elemScatter N C E wf).scatterDimsToOperandDims,
      List.idxOf_lt_length_iff.2 (show (0 : Fin 2) ∈ ([0, 1] : List (Fin 2)) by decide)⟩ = ix2 p (0 : Fin 2) := by
    funext b; refine Fin.ext ?_
    match b with
    | ⟨0, _⟩ => rfl
    | ⟨1, _⟩ => rfl
  rw [hsi]
  simp

/-- On the column axis the landing coordinate of update p is the column word of p read signed. -/
theorem elemScatter_land1 {N C E w : Nat}
    (wf : ScatterDims.WF ⟨2, ![N, C]⟩ ⟨2, ![E, 2]⟩ ⟨1, ![E]⟩ [] [0, 1] [0, 1] 1)
    (idx : IVec ⟨2, ![E, 2]⟩ w) (p : Fin E) :
    (elemScatter N C E wf).start (ix1 p) idx 1 + ((elemScatter N C E wf).window (ix1 p) 1 : ℤ)
      = (idx (ix2 p (1 : Fin 2))).toInt := by
  have hw : (elemScatter N C E wf).window (ix1 p) 1 = 0 := by
    unfold ScatterDims.window
    rw [dif_neg (show (1 : Fin 2) ∉ Shape.kept (⟨2, ![N, C]⟩ : Shape) ([0, 1] : List (Fin 2)) by simp [Shape.kept])]
  rw [hw]
  unfold ScatterDims.start
  rw [dif_pos (show (1 : Fin 2) ∈ ([0, 1] : List (Fin 2)) by decide)]
  have hsi : (elemScatter N C E wf).siIdx (ix1 p) ⟨List.idxOf (1 : Fin 2) (elemScatter N C E wf).scatterDimsToOperandDims,
      List.idxOf_lt_length_iff.2 (show (1 : Fin 2) ∈ ([0, 1] : List (Fin 2)) by decide)⟩ = ix2 p (1 : Fin 2) := by
    funext b; refine Fin.ext ?_
    match b with
    | ⟨0, _⟩ => rfl
    | ⟨1, _⟩ => rfl
  rw [hsi]
  simp

/-- Where an update of an element scatter lands: update p lands on operand element (n, c) exactly when its row word,
    read signed, is n and its column word, read signed, is c. -/
theorem elemScatter_resultIdx?_eq_some_iff {N C E w : Nat}
    (wf : ScatterDims.WF ⟨2, ![N, C]⟩ ⟨2, ![E, 2]⟩ ⟨1, ![E]⟩ [] [0, 1] [0, 1] 1)
    (idx : IVec ⟨2, ![E, 2]⟩ w) (p : Fin E) (n : Fin N) (c : Fin C) :
    (elemScatter N C E wf).resultIdx? (ix1 p) idx = some (ix2 n c)
      ↔ ((idx (ix2 p (0 : Fin 2))).toInt = (n.val : ℤ) ∧ (idx (ix2 p (1 : Fin 2))).toInt = (c.val : ℤ)) := by
  have h0 := elemScatter_land0 wf idx p
  have h1 := elemScatter_land1 wf idx p
  unfold ScatterDims.resultIdx?
  split
  · rename_i h
    rw [Option.some.injEq]
    constructor
    · intro hf
      have e0 : ((elemScatter N C E wf).start (ix1 p) idx 0 + ((elemScatter N C E wf).window (ix1 p) 0 : ℤ)).toNat = n.val :=
        congrArg Fin.val (congrFun hf 0)
      have e1 : ((elemScatter N C E wf).start (ix1 p) idx 1 + ((elemScatter N C E wf).window (ix1 p) 1 : ℤ)).toNat = c.val :=
        congrArg Fin.val (congrFun hf 1)
      have p0 := (h 0).1
      have p1 := (h 1).1
      rw [h0] at e0 p0
      rw [h1] at e1 p1
      exact ⟨by omega, by omega⟩
    · rintro ⟨hn, hc⟩
      funext a
      refine Fin.ext ?_
      match a with
      | ⟨0, _⟩ =>
        show ((elemScatter N C E wf).start (ix1 p) idx 0 + ((elemScatter N C E wf).window (ix1 p) 0 : ℤ)).toNat = n.val
        rw [h0, hn]; simp
      | ⟨1, _⟩ =>
        show ((elemScatter N C E wf).start (ix1 p) idx 1 + ((elemScatter N C E wf).window (ix1 p) 1 : ℤ)).toNat = c.val
        rw [h1, hc]; simp
  · rename_i h
    constructor
    · intro hf; exact absurd hf (by simp)
    · rintro ⟨hn, hc⟩
      exfalso
      apply h
      intro a
      match a with
      | ⟨0, _⟩ =>
        show 0 ≤ (elemScatter N C E wf).start (ix1 p) idx 0 + ((elemScatter N C E wf).window (ix1 p) 0 : ℤ)
          ∧ (elemScatter N C E wf).start (ix1 p) idx 0 + ((elemScatter N C E wf).window (ix1 p) 0 : ℤ) < (N : ℤ)
        rw [h0, hn]
        have := n.isLt
        omega
      | ⟨1, _⟩ =>
        show 0 ≤ (elemScatter N C E wf).start (ix1 p) idx 1 + ((elemScatter N C E wf).window (ix1 p) 1 : ℤ)
          ∧ (elemScatter N C E wf).start (ix1 p) idx 1 + ((elemScatter N C E wf).window (ix1 p) 1 : ℤ) < (C : ℤ)
        rw [h1, hc]
        have := c.isLt
        omega

/-- THE ELEMENT SCATTER-ADD READ AT (n, c): the operand's element plus the updates summed over the positions whose
    (row word, column word) pair is (n, c). -/
theorem elemScatterAdd_apply {N C E w : Nat}
    (wf : ScatterDims.WF ⟨2, ![N, C]⟩ ⟨2, ![E, 2]⟩ ⟨1, ![E]⟩ [] [0, 1] [0, 1] 1)
    (x : (⟨2, ![N, C]⟩ : Shape).Idx → EReal) (idx : IVec ⟨2, ![E, 2]⟩ w)
    (upd : (⟨1, ![E]⟩ : Shape).Idx → EReal) (n : Fin N) (c : Fin C) :
    Ideal.hostScatterAdd (elemScatter N C E wf) x idx upd (ix2 n c)
      = x (ix2 n c) + ∑ e ∈ Finset.univ.filter (fun e : Fin E =>
          (idx (ix2 e (0 : Fin 2))).toInt = (n.val : ℤ) ∧ (idx (ix2 e (1 : Fin 2))).toInt = (c.val : ℤ)),
          upd (ix1 e) := by
  unfold Ideal.hostScatterAdd
  congr 1
  refine Finset.sum_nbij' (fun j => (j 0 : Fin E)) (fun e => ix1 e) ?_ ?_ ?_ ?_ ?_
  · intro j hj
    obtain ⟨p, rfl⟩ : ∃ (p : Fin E), j = ix1 p := ⟨j 0, eq_ix1 j⟩
    rw [Finset.mem_filter] at hj
    exact Finset.mem_filter.mpr ⟨Finset.mem_univ _, (elemScatter_resultIdx?_eq_some_iff wf idx p n c).mp hj.2⟩
  · intro e he
    rw [Finset.mem_filter] at he ⊢
    exact ⟨Finset.mem_univ _, (elemScatter_resultIdx?_eq_some_iff wf idx e n c).mpr he.2⟩
  · intro j _
    exact (eq_ix1 j).symm
  · intro e _
    rfl
  · intro j _
    exact congrArg upd (eq_ix1 j)

/-! ## The same two readings for ANY record with these dimension numbers

A printed program names its own record of dimension numbers; these forms take it with its fields as hypotheses (each
holds by unfolding the record). -/

/-- The element gather read at e, for any record with an element gather's dimension numbers. -/
theorem elemGather_apply_of {α : Type} {N C E w : Nat} (hN : 0 < N) (hC : 0 < C)
    (d : GatherDims ⟨2, ![N, C]⟩ ⟨2, ![E, 2]⟩ ⟨1, ![E]⟩)
    (hoff : d.offsetDims = []) (hcoll : d.collapsedSliceDims = [0, 1]) (hob : d.operandBatchingDims = [])
    (hsb : d.startIndicesBatchingDims = []) (hsim : d.startIndexMap = [0, 1]) (hivd : d.indexVectorDim = 1)
    (hss : d.sliceSizes = ![1, 1])
    (x : (⟨2, ![N, C]⟩ : Shape).Idx → α) (idx : IVec ⟨2, ![E, 2]⟩ w) (e : Fin E) :
    Host.gather d x idx (ix1 e)
      = x (ix2 (⟨min (idx (ix2 e (0 : Fin 2))).toInt.toNat (N - 1), by omega⟩ : Fin N)
               (⟨min (idx (ix2 e (1 : Fin 2))).toInt.toNat (C - 1), by omega⟩ : Fin C)) := by
  obtain ⟨od, cd, ob, sb, sm, iv, ss, wf⟩ := d
  simp only at hoff hcoll hob hsb hsim hivd hss
  subst hoff hcoll hob hsb hsim hivd hss
  exact elemGather_apply hN hC wf x idx e

/-- The element scatter-add read at (n, c), for any record with an element scatter's dimension numbers. -/
theorem elemScatterAdd_apply_of {N C E w : Nat}
    (d : ScatterDims ⟨2, ![N, C]⟩ ⟨2, ![E, 2]⟩ ⟨1, ![E]⟩)
    (huw : d.updateWindowDims = []) (hiw : d.insertedWindowDims = [0, 1])
    (hsd : d.scatterDimsToOperandDims = [0, 1]) (hivd : d.indexVectorDim = 1)
    (x : (⟨2, ![N, C]⟩ : Shape).Idx → EReal) (idx : IVec ⟨2, ![E, 2]⟩ w)
    (upd : (⟨1, ![E]⟩ : Shape).Idx → EReal) (n : Fin N) (c : Fin C) :
    Ideal.hostScatterAdd d x idx upd (ix2 n c)
      = x (ix2 n c) + ∑ e ∈ Finset.univ.filter (fun e : Fin E =>
          (idx (ix2 e (0 : Fin 2))).toInt = (n.val : ℤ) ∧ (idx (ix2 e (1 : Fin 2))).toInt = (c.val : ℤ)),
          upd (ix1 e) := by
  obtain ⟨uw, iw, sd, iv, wf⟩ := d
  simp only at huw hiw hsd hivd
  subst huw hiw hsd hivd
  exact elemScatterAdd_apply wf x idx upd n c

end Idealize.ShloMosaic.ElemOps

end
-- ==== Proof.RefValue.lean ====
/-
  The reference's float stages at a row, and its result.

  With every target word naming a class: the accumulating scatter adds, at (r, k), the one update of row r when k is
  row r's class and nothing otherwise (the index pairs (r, class of r) are distinct, one per row); the scaled scores of
  row r are the specification's; the log-softmax's row maximum is the fold of max from −∞, taken once more against −∞;
  the final gather reads the log-softmax at (r, class of r); negated, summed over the rows from zero and divided by
  32768 this is the mean loss.
-/
import proofs.«422333_j6305011990635_3_alg».proof.Proof.RefIndex
import proofs.«422333_j6305011990635_3_alg».proof.Proof.LibElemOps
import Idealize.ShloMosaic.PureOps.Ideal.Laws
import Idealize.ShloMosaic.Lib.ValueIdxRank1

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo.Predicate Idealize.ShloMosaic.ElemOps Cert.Ldam

/-- Reducing an n × m array over its columns: row r with column k put back is (r, k). -/
theorem lift_cols {n m : Nat} (h : (⟨2, ![n, m]⟩ : Shape).Reduces [1] ⟨1, ![n]⟩) (r : Fin n) (k : Fin m) :
    h.lift (ix1 r) k = ix2 r k := by
  funext c; apply Fin.ext
  fin_cases c <;> rfl

/-- The printed scatter read at (r, k), for any index table and updates. -/
theorem scatter_read (x : FVec Ideal S32768x1000 .f32) (idx : IVec S32768x2 32) (upd : FVec Ideal S32768 .f32)
    (r : Fin 32768) (k : Fin 1000) :
    Host.scatterAdd scatter_S32768x1000_S32768x2_S32768_n_01_01_1 x idx upd (ix2 r k)
      = x (ix2 r k) + ∑ e ∈ Finset.univ.filter (fun e : Fin 32768 =>
          (idx (ix2 e (0 : Fin 2))).toInt = (r.val : ℤ) ∧ (idx (ix2 e (1 : Fin 2))).toInt = (k.val : ℤ)), upd (ix1 e) :=
  elemScatterAdd_apply_of scatter_S32768x1000_S32768x2_S32768_n_01_01_1 rfl rfl rfl rfl x idx upd r k

/-- The printed final gather read at r, for any operand and index table. -/
theorem gather_read (y : FVec Ideal S32768x1000 .f32) (idx : IVec S32768x2 32) (r : Fin 32768) :
    Host.gather gather_S32768x1000_S32768x2_S32768_n_01_n_n_01_1_11 y idx (ix1 r)
      = y (ix2 (⟨min (idx (ix2 r (0 : Fin 2))).toInt.toNat (32768 - 1), by omega⟩ : Fin 32768)
               (⟨min (idx (ix2 r (1 : Fin 2))).toInt.toNat (1000 - 1), by omega⟩ : Fin 1000)) :=
  elemGather_apply_of (by decide) (by decide) gather_S32768x1000_S32768x2_S32768_n_01_n_n_01_1_11
    rfl rfl rfl rfl rfl rfl rfl y idx r

variable (x0 : FVec Ideal S32768x1000 .f32) (x1 : FVec Ideal S1000 .f32) (x2 : IVec S32768 32)
variable (hT : ∀ r : Fin 32768, (x2 (ix1 r)).toNat < 1000)

/-- Row r's scaled adjusted scores, as the specification writes them. -/
abbrev srow (r : Fin 32768) : Fin 1000 → EReal :=
  scoreAdd (Ideal.ofBits .f32 0x41F00000#32) (rowOf x0 r) (marginOf x1) (classOf x2 r)

include hT in
/-- THE SCATTER at (r, k): the score plus the negated margin of row r's class when k is that class. -/
theorem v22_apply (r : Fin 32768) (k : Fin 1000) :
    val_main_v22 (F := Ideal) x0 x1 x2 (ix2 r k)
      = x0 (ix2 r k) + (if k = classOf x2 r then -(x1 (ix1 (classOf x2 r))) else 0) := by
  unfold val_main_v22
  rw [scatter_read]
  refine congrArg (x0 (ix2 r k) + ·) ?_
  have hfilter : (Finset.univ.filter fun e : Fin 32768 =>
        (val_main_v21 (F := Ideal) x2 (ix2 e (0 : Fin 2))).toInt = (r.val : ℤ)
          ∧ (val_main_v21 (F := Ideal) x2 (ix2 e (1 : Fin 2))).toInt = (k.val : ℤ))
      = if k = classOf x2 r then {r} else ∅ := by
    ext e
    simp only [Finset.mem_filter, Finset.mem_univ, true_and]
    rw [v21_col0, v21_col1 x2 hT, toInt_ofNat_small _ (by have := e.isLt; omega), word_toInt_class x2 e (hT e)]
    split
    · rename_i hk
      simp only [Finset.mem_singleton]
      constructor
      · rintro ⟨h1, _⟩; exact Fin.ext (by exact_mod_cast h1)
      · rintro rfl; exact ⟨rfl, by rw [hk]⟩
    · rename_i hk
      simp only [Finset.notMem_empty, iff_false, not_and]
      intro h1 h2
      have her : e = r := Fin.ext (by exact_mod_cast h1)
      subst her
      exact hk (Fin.ext (by exact_mod_cast h2.symm))
  rw [hfilter]
  split
  · rw [Finset.sum_singleton, val_main_v8_apply, v7_apply x1 x2 hT]; rfl
  · rw [Finset.sum_empty]

include hT in
/-- The scaled scores at (r, k). -/
theorem v24_apply (r : Fin 32768) (k : Fin 1000) : val_main_v24 (F := Ideal) x0 x1 x2 (ix2 r k) = srow x0 x1 x2 r k := by
  rw [val_main_v24_apply, val_main_v23_apply, val_main_cst_apply, v22_apply x0 x1 x2 hT]
  rfl

include hT in
/-- The log-softmax's row maximum. -/
theorem call0_v0_apply (r : Fin 32768) : val_main_call0_v0 (F := Ideal) x0 x1 x2 (ix1 r) = rowMax (srow x0 x1 x2 r) := by
  unfold val_main_call0_v0
  refine (Host.reduce_eq_fold_single FloatOps.maximumf _ _ reducesTo_S32768x1000_S32768_d1 (by decide) h_S_ (ix1 r)).trans ?_
  have hf : (val_main_v24 (F := Ideal) x0 x1 x2 ∘ (show S32768x1000.Reduces [1] S32768 by decide).lift (ix1 r)) = srow x0 x1 x2 r :=
    funext fun k => (congrArg (val_main_v24 (F := Ideal) x0 x1 x2) (lift_cols _ r k)).trans (v24_apply x0 x1 x2 hT r k)
  rw [hf]
  unfold rowMax
  show Finset.fold max (Ideal.ofBits .f32 0xFF800000#32) _ _ = _
  rw [ofBits_negInf]
  rfl

include hT in
/-- ... taken once more against −∞. -/
theorem call0_v2_apply (r : Fin 32768) : val_main_call0_v2 (F := Ideal) x0 x1 x2 (ix1 r) = rowMax (srow x0 x1 x2 r) := by
  rw [val_main_call0_v2_apply, val_main_call0_v1_apply, val_main_call0_cst_0_apply, call0_v0_apply x0 x1 x2 hT]
  show max (Ideal.ofBits .f32 0xFF800000#32) _ = _
  rw [ofBits_negInf]
  exact max_bot_left _

include hT in
/-- The shifted scores at (r, k). -/
theorem call0_v5_apply (r : Fin 32768) (k : Fin 1000) :
    val_main_call0_v5 (F := Ideal) x0 x1 x2 (ix2 r k) = srow x0 x1 x2 r k - rowMax (srow x0 x1 x2 r) := by
  rw [val_main_call0_v5_apply, val_main_call0_v4_apply, val_main_call0_v3_apply, v24_apply x0 x1 x2 hT]
  have hi : idx_main_call0_v3 (idx_main_call0_v4 (ix2 r k)) = (ix1 r : S32768.Idx) := by
    funext a; match a with | ⟨0, _⟩ => exact Fin.ext rfl
  rw [hi, call0_v2_apply x0 x1 x2 hT]
  rfl

include hT in
/-- The row sum of exponentials. -/
theorem call0_v7_sum (r : Fin 32768) :
    val_main_call0_v7 (F := Ideal) x0 x1 x2 (ix1 r) = ∑ k : Fin 1000, Ideal.exp (srow x0 x1 x2 r k - rowMax (srow x0 x1 x2 r)) := by
  rw [val_main_call0_v7_apply, val_main_call0_cst_1_apply]
  show Ideal.ofBits .f32 0x00000000#32 + _ = _
  rw [Ideal.ofBits_zero_f32, zero_add]
  refine Finset.sum_congr rfl fun k _ => ?_
  rw [val_main_call0_v6_apply]
  have hi : idx_main_call0_v7 (ix1 r) k = (ix2 r k : S32768x1000.Idx) := by
    funext a; match a with | ⟨0, _⟩ => exact Fin.ext rfl | ⟨1, _⟩ => exact Fin.ext rfl
  rw [hi, call0_v5_apply x0 x1 x2 hT]
  rfl

include hT in
/-- The log-softmax at (r, k). -/
theorem v25_apply (r : Fin 32768) (k : Fin 1000) :
    val_main_v25 (F := Ideal) x0 x1 x2 (ix2 r k)
      = (srow x0 x1 x2 r k - rowMax (srow x0 x1 x2 r))
          - Ideal.log (∑ k : Fin 1000, Ideal.exp (srow x0 x1 x2 r k - rowMax (srow x0 x1 x2 r))) := by
  rw [val_main_v25_apply, call0_v5_apply x0 x1 x2 hT, val_main_call0_v10_apply, val_main_call0_v9_apply, val_main_call0_v8_apply]
  have hi : idx_main_call0_v8 (idx_main_call0_v10 (ix2 r k)) = (ix1 r : S32768.Idx) := by
    funext a; match a with | ⟨0, _⟩ => exact Fin.ext rfl
  rw [hi, call0_v7_sum x0 x1 x2 hT]
  rfl

include hT in
/-- THE FINAL GATHER at r: the log-softmax at (r, class of r). -/
theorem v39_apply (r : Fin 32768) :
    val_main_v39 (F := Ideal) x0 x1 x2 (ix1 r) = val_main_v25 (F := Ideal) x0 x1 x2 (ix2 r (classOf x2 r)) := by
  unfold val_main_v39
  rw [gather_read]
  refine congrArg (val_main_v25 (F := Ideal) x0 x1 x2) ?_
  funext a
  apply Fin.ext
  match a with
  | ⟨0, _⟩ =>
    show min (val_main_v38 (F := Ideal) x2 (ix2 r (0 : Fin 2))).toInt.toNat (32768 - 1) = r.val
    rw [v38_col0, toInt_ofNat_small _ (by have := r.isLt; omega)]
    have := r.isLt
    simp only [Int.toNat_natCast]
    omega
  | ⟨1, _⟩ =>
    show min (val_main_v38 (F := Ideal) x2 (ix2 r (1 : Fin 2))).toInt.toNat (1000 - 1) = (classOf x2 r).val
    rw [v38_col1 x2 hT, word_toInt_class x2 r (hT r)]
    have := (classOf x2 r).isLt
    simp only [Int.toNat_natCast]
    omega

include hT in
/-- The negated gather at r is row r's loss. -/
theorem v40_rowLoss (r : Fin 32768) : val_main_v40 (F := Ideal) x0 x1 x2 (ix1 r) = rowLoss x0 x1 x2 r := by
  rw [val_main_v40_apply, v39_apply x0 x1 x2 hT, v25_apply x0 x1 x2 hT]
  rfl

include hT in
/-- THE REFERENCE'S RESULT is the mean loss. -/
theorem v42_eq_meanLoss : val_main_v42 (F := Ideal) x0 x1 x2 = meanLoss x0 x1 x2 := by
  funext i
  rw [val_main_v42_apply, val_main_v41_apply, val_main_cst_9_apply, val_main_cst_10_apply]
  unfold meanLoss
  show Ideal.div (Ideal.ofBits .f32 0x00000000#32 + ∑ j : S32768.Idx, val_main_v40 (F := Ideal) x0 x1 x2 j)
    (Ideal.ofBits .f32 0x47000000#32) = _
  refine congrArg (fun s => Ideal.div (Ideal.ofBits .f32 0x00000000#32 + s) (Ideal.ofBits .f32 0x47000000#32)) ?_
  rw [← Equiv.sum_comp (idxEquiv1 (n := 32768)).symm]
  exact Finset.sum_congr rfl fun r _ => v40_rowLoss x0 x1 x2 hT r

end Cert.ReferenceIdeal.RefValue

end
-- ==== Proof.LdamChunk.lean ====
/-
  One chunk of the kernel's body as one function, and the body's stored value as eight chunks added to zero.

  The body walks its 2048-row block in eight chunks of 256 rows.  For a chunk with scores x (256 × 1000), target words
  tg (256 × 1) and the margin row mg (1 × 1000) it forms the mask hit = (column index = target word), the scaled
  adjusted scores 30 · (x − (hit ? mg : 0)), per row the target's score (the row sum of hit ? score : 0), the row
  maximum M, the row sum D of exp (score − M), the row loss (M + log D) − target score, and adds the 256 losses.
  The running total starts at zero, gains one chunk's sum per chunk and is stored as the block's one element.
  The printed body spreads these operations over named pieces cut by position, not by chunk; the equations below
  say which groups of pieces are "the running total plus one chunk".  All hold by unfolding, at any float family.
-/
import proofs.«422333_j6305011990635_3_alg».proof.Proof.Gen.KernelIdeal.Skeleton

set_option synthInstance.maxSize 4096

noncomputable section

namespace Cert.KernelIdeal.Chunk

open Idealize.ShloMosaic Idealize.SL.Sem Cert.KernelIdeal Cert.KernelIdeal.Gen

variable {F : FTy → Type} [FloatOps F]

/-- The mask of a chunk: 1 where the column index is the row's target word. -/
def hit (tg : Vec F S256x1 .i32) : IVec S256x1000 1 :=
  cmpi .eq (iota .tc S256x1000 32 [1] iota_S256x1000_d1_w32)
    (broadcastTo S256x1000 (shapeCast S256x1 tg shapeCasts_S256x1_S256x1) broadcasts_S256x1_S256x1000)

/-- The scaled adjusted scores of a chunk under a mask: 30 · (x − (mask ? margin of the column : 0)). -/
def scoresOf (h : IVec S256x1000 1) (mg : FVec F S1x1000 .f32) (x : Vec F S256x1000 .f32) : FVec F S256x1000 .f32 :=
  mulf (broadcast S256x1000 (Scalar.ofBits .f32 0x41F00000#32))
    (subf x (select h
      (broadcastTo S256x1000 (shapeCast S1x1000 mg shapeCasts_S1x1000_S1x1000) broadcasts_S1x1000_S256x1000)
      (broadcast S256x1000 (Scalar.ofBits .f32 0x00000000#32))))

/-- Per row, the sum of (mask ? score : 0): the target's score. -/
def targetOf (h : IVec S256x1000 1) (sc : FVec F S256x1000 .f32) : FVec F S256x1 .f32 :=
  shapeCast S256x1
    (multiReduction .add [1] S256 (select h sc (broadcast S256x1000 (Scalar.ofBits .f32 0x00000000#32))) 0x00000000#32
      reduces_S256x1000_S256 (.inl rfl) rfl) shapeCasts_S256_S256x1

/-- Per row, the maximum score. -/
def maxOf (sc : FVec F S256x1000 .f32) : FVec F S256x1 .f32 :=
  shapeCast S256x1 (multiReduction .maximumf [1] S256 sc 0xFF800000#32 reduces_S256x1000_S256 (.inl rfl) rfl)
    shapeCasts_S256_S256x1

/-- Per row, the sum of exp (score − the row's maximum). -/
def expSumOf (sc : FVec F S256x1000 .f32) (mx : FVec F S256x1 .f32) : FVec F S256x1 .f32 :=
  shapeCast S256x1
    (multiReduction .add [1] S256 (exp (subf sc (broadcastTo S256x1000 mx broadcasts_S256x1_S256x1000))) 0x00000000#32
      reduces_S256x1000_S256 (.inl rfl) rfl) shapeCasts_S256_S256x1

/-- The sum over the chunk's rows of (maximum + log (sum of exponentials)) − target score. -/
def lossSumOf (tv mx dn : FVec F S256x1 .f32) : FVec F S1x1 .f32 :=
  shapeCast S1x1 (multiReduction .add [0] S1 (subf (addf mx (log dn)) tv) 0x00000000#32 reduces_S256x1_S1 (.inl rfl) rfl)
    shapeCasts_S1_S1x1

/-- One chunk: the sum of its 256 row losses. -/
def chunk (mg : FVec F S1x1000 .f32) (x : Vec F S256x1000 .f32) (tg : Vec F S256x1 .i32) : FVec F S1x1 .f32 :=
  lossSumOf (targetOf (hit tg) (scoresOf (hit tg) mg x)) (maxOf (scoresOf (hit tg) mg x))
    (expSumOf (scoresOf (hit tg) mg x) (maxOf (scoresOf (hit tg) mg x)))

/-- The running total before the first chunk. -/
def zero11 : FVec F S1x1 .f32 := broadcast S1x1 (Scalar.ofBits .f32 0x00000000#32)

/-! ## The printed pieces, chunk by chunk -/

theorem pay3_eq (v0 : Vec F S1x1000 .f32) (x : Vec F S256x1000 .f32) (tg : Vec F S256x1 .i32) :
    k0_pay3 v0 x tg = addf zero11 (chunk (k0_pay2 v0) x tg) := rfl

theorem pay4_eq (mg : FVec F S1x1000 .f32) (acc : FVec F S1x1 .f32) (x : Vec F S256x1000 .f32) (tg : Vec F S256x1 .i32) :
    k0_pay4 mg acc x tg = addf acc (chunk mg x tg) := rfl

theorem pay7_eq (mg : FVec F S1x1000 .f32) (acc : FVec F S1x1 .f32) (x : Vec F S256x1000 .f32) (tg : Vec F S256x1 .i32) :
    k0_pay7 acc (k0_pay5 tg) (k0_pay6 mg x tg) = addf acc (chunk mg x tg) := rfl

theorem pay13_eq (mg : FVec F S1x1000 .f32) (acc : FVec F S1x1 .f32) (x : Vec F S256x1000 .f32) (tg : Vec F S256x1 .i32)
    (x' : Vec F S256x1000 .f32) (tg' : Vec F S256x1 .i32) :
    k0_pay13 mg acc (k0_pay10 mg x tg) (k0_pay11 mg x tg) (k0_pay12 mg x tg) x' tg'
      = addf (addf acc (chunk mg x tg)) (chunk mg x' tg') := rfl

theorem pay14_eq (mg : FVec F S1x1000 .f32) (acc : FVec F S1x1 .f32) (x : Vec F S256x1000 .f32) (tg : Vec F S256x1 .i32) :
    k0_pay14 mg acc x tg = addf acc (chunk mg x tg) := rfl

theorem pay17_eq (mg : FVec F S1x1000 .f32) (acc : FVec F S1x1 .f32) (x : Vec F S256x1000 .f32) (tg : Vec F S256x1 .i32) :
    k0_pay17 acc (k0_pay15 tg) (k0_pay16 mg x tg) = addf acc (chunk mg x tg) := rfl

theorem pay1_eq (mg : FVec F S1x1000 .f32) (acc : FVec F S1x1 .f32) (x : Vec F S256x1000 .f32) (tg : Vec F S256x1 .i32) :
    k0_pay1 acc (k0_pay20 mg x tg) (k0_pay21 mg x tg) (k0_pay22 mg x tg)
      = shapeCast S1x1x1 (addf acc (chunk mg x tg)) shapeCasts_S1x1_S1x1x1 := rfl

end Cert.KernelIdeal.Chunk

end
-- ==== Proof.KernelBlock.lean ====
/-
  What one grid point of the kernel leaves in its 1 × 1 × 1 output block, as a function of the point's three input
  blocks: the sum over the block's eight 256-row chunks of the chunk's summed row losses, added up from zero in
  chunk order.  The body's run (whole staging buffers; one store, covering the output block) finds the stored value as
  nested pieces of the printed body; the chunk equations regroup them.  At any float family.
-/
import proofs.«422333_j6305011990635_3_alg».proof.Proof.Gen.KernelIdeal.Frame
import proofs.«422333_j6305011990635_3_alg».proof.Proof.LdamChunk
import Idealize.ShloMosaic.Lib.Pipeline.Value

set_option maxRecDepth 16384

noncomputable section

namespace Cert.KernelIdeal.Block

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Chunk

variable {F : FTy → Type} [FloatOps F]

/-- Rows o … o + 255 lie inside the 2048-row block. -/
theorem inbRows (o : Nat) (h : o + 256 ≤ 2048) :
    ∀ a, (![o, 0] : Fin 2 → Nat) a + S256x1000.size a ≤ S2048x1000.size a := by
  intro a; fin_cases a
  · show o + 256 ≤ 2048; exact h
  · show 0 + 1000 ≤ 1000; omega

theorem inbWords (o : Nat) (h : o + 256 ≤ 2048) :
    ∀ a, (![o, 0] : Fin 2 → Nat) a + S256x1.size a ≤ S2048x1.size a := by
  intro a; fin_cases a
  · show o + 256 ≤ 2048; exact h
  · show 0 + 1 ≤ 1; omega

/-- The 256 rows of the score block from row o. -/
def rowsAt (x0 : Vec F S2048x1000 .f32) (o : Nat) (h : o + 256 ≤ 2048) : Vec F S256x1000 .f32 :=
  View.ld x0 (Rect.unit ![o, 0] S256x1000.size (inbRows o h))

/-- The 256 target words of the target block from row o. -/
def wordsAt (x2 : Vec F S2048x1 .i32) (o : Nat) (h : o + 256 ≤ 2048) : Vec F S256x1 .i32 :=
  View.ld x2 (Rect.unit ![o, 0] S256x1.size (inbWords o h))

/-- The block's total: its eight chunks added to zero in order. -/
def blockTotal (x0 : Vec F S2048x1000 .f32) (x1 : Vec F S1x1000 .f32) (x2 : Vec F S2048x1 .i32) : FVec F S1x1 .f32 :=
  (addf (addf (addf (addf (addf (addf (addf (addf zero11
      (chunk (k0_pay2 x1) (rowsAt x0 0 (by decide)) (wordsAt x2 0 (by decide))))
      (chunk (k0_pay2 x1) (rowsAt x0 256 (by decide)) (wordsAt x2 256 (by decide))))
      (chunk (k0_pay2 x1) (rowsAt x0 512 (by decide)) (wordsAt x2 512 (by decide))))
      (chunk (k0_pay2 x1) (rowsAt x0 768 (by decide)) (wordsAt x2 768 (by decide))))
      (chunk (k0_pay2 x1) (rowsAt x0 1024 (by decide)) (wordsAt x2 1024 (by decide))))
      (chunk (k0_pay2 x1) (rowsAt x0 1280 (by decide)) (wordsAt x2 1280 (by decide))))
      (chunk (k0_pay2 x1) (rowsAt x0 1536 (by decide)) (wordsAt x2 1536 (by decide))))
      (chunk (k0_pay2 x1) (rowsAt x0 1792 (by decide)) (wordsAt x2 1792 (by decide))))

/-- WHAT THE BODY LEAVES in the output block: the block's total, viewed 1 × 1 × 1. -/
theorem out_eq (c : Dev nD) (i : grid0.Coords) (arg1 : Memref sig .tc .vmem S2048x1000 .f32) (harg1 : arg1.IsWhole)
    (arg2 : Memref sig .tc .vmem S1x1000 .f32) (harg2 : arg2.IsWhole) (arg3 : Memref sig .tc .vmem S2048x1 .i32) (harg3 : arg3.IsWhole)
    (arg4 : Memref sig .tc .vmem S1x1x1 .f32) (harg4 : arg4.IsWhole)
    (x0 : Vec F S2048x1000 .f32) (x1 : Vec F S1x1000 .f32) (x2 : Vec F S2048x1 .i32) :
    out0_A_3 c i arg1 harg1 arg2 harg2 arg3 harg3 arg4 harg4 x0 x1 x2
      = shapeCast S1x1x1 (blockTotal x0 x1 x2) shapeCasts_S1x1_S1x1x1 := by
  unfold out0_A_3
  rw [View.read_writes_eq_canon _ _ _ (cover0_A_3 c i arg1 harg1 arg2 harg2 arg3 harg3 arg4 harg4 x0 x1 x2)]
  unfold kernelRun0_A
  dsimp only
  sl_unfold_words
  rw [View.canon_unit_zero (S := S1x1x1) (off := ![0, 0, 0]) (funext fun a => by fin_cases a <;> rfl)]
  simp only [View.readAt_eq_ld, harg1.read_unread, harg2.read_unread, harg3.read_unread]
  rw [View.ld_unit_zero (S := S1x1000) (off := ![0, 0]) (funext fun a => by fin_cases a <;> rfl)]
  rw [pay1_eq, pay17_eq, pay14_eq, pay13_eq, pay7_eq, pay4_eq, pay3_eq]
  rfl

end Cert.KernelIdeal.Block

end
-- ==== Proof.LdamChunkValue.lean ====
/-
  One chunk of the kernel's body read at the ideal values.

  With the target words of a chunk's 256 rows known to name classes t q < 1000, the mask at (q, k) is 1 exactly at
  k = t q, the scaled adjusted score at (q, k) is 30 · (x (q, k) − [k = t q] · m k), the row sum of the masked scores is
  the score at the target, the row maximum is the fold of max from −∞ over the row, and the chunk's value is the sum over
  its rows of (M + log ∑ₖ exp (s k − M)) − s (t q).
-/
import proofs.«422333_j6305011990635_3_alg».proof.Proof.LdamChunk
import proofs.«422333_j6305011990635_3_alg».proof.Proof.LdamSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Chunk

open Idealize.ShloMosaic Idealize.ShloMosaic.ValueIdx Cert.KernelIdeal Cert.KernelIdeal.Gen Cert.Ldam

/-! ## The layout operations of the chunk at their indices -/

section Layout
variable {α : Type}

/-- A 256-vector viewed as a 256 × 1 column reads, at (q, 0), entry q. -/
theorem cast_256_col (v : S256.Idx → α) (q : Fin 256) :
    shapeCast S256x1 v shapeCasts_S256_S256x1 (ix2 q (0 : Fin 1)) = v (ix1 q) :=
  shapeCast_apply v _ _ _ (by rw [Shape.rowMajor_val_one, Shape.rowMajor_val_two]; show q.val = q.val * 1 + 0; omega)

/-- A 1-vector viewed as 1 × 1 reads its entry. -/
theorem cast_1_11 (v : S1.Idx → α) :
    shapeCast S1x1 v shapeCasts_S1_S1x1 (ix2 (0 : Fin 1) (0 : Fin 1)) = v (ix1 (0 : Fin 1)) :=
  shapeCast_apply v _ _ _ (by rw [Shape.rowMajor_val_one, Shape.rowMajor_val_two]; rfl)

/-- A 1 × 1 array viewed as 1 × 1 × 1 reads its entry. -/
theorem cast_11_111 (v : S1x1.Idx → α) :
    shapeCast S1x1x1 v shapeCasts_S1x1_S1x1x1 (ix3 (0 : Fin 1) (0 : Fin 1) (0 : Fin 1)) = v (ix2 (0 : Fin 1) (0 : Fin 1)) :=
  shapeCast_apply v _ _ _ (by rw [Shape.rowMajor_val_two, Shape.rowMajor_val_three]; rfl)

/-- A 256 × 1 column broadcast over 1000 columns reads, at (q, k), the column's entry q. -/
theorem bcast_col (v : S256x1.Idx → α) (q : Fin 256) (k : Fin 1000) :
    broadcastTo S256x1000 v broadcasts_S256x1_S256x1000 (ix2 q k) = v (ix2 q (0 : Fin 1)) :=
  broadcastTo_apply v _ _ _ (fun a => by match a with | ⟨0, _⟩ => rfl | ⟨1, _⟩ => rfl)

/-- Reducing a 256 × 1000 array over its columns: row q with column k put back is (q, k). -/
theorem lift_row (h : S256x1000.Reduces [1] S256) (q : Fin 256) (k : Fin 1000) : h.lift (ix1 q) k = ix2 q k := by
  funext c; apply Fin.ext
  fin_cases c <;> rfl

/-- Reducing a 256 × 1 column over its rows: the one result index with row q put back is (q, 0). -/
theorem lift_col (h : S256x1.Reduces [0] S1) (q : Fin 256) : h.lift (ix1 (0 : Fin 1)) q = ix2 q (0 : Fin 1) := by
  funext c; apply Fin.ext
  fin_cases c <;> rfl

end Layout

/-- Two words made from naturals below 2³² are equal only if the naturals are. -/
theorem ofNat_inj_of_lt {a b : Nat} (ha : a < 2 ^ 32) (hb : b < 2 ^ 32) (e : BitVec.ofNat 32 a = BitVec.ofNat 32 b) : a = b := by
  have := congrArg BitVec.toNat e
  simp only [BitVec.toNat_ofNat] at this
  omega

/-! ## The chunk's three reductions over literal index types -/

/-- The sum over the columns of a 256 × 1000 array, at row q. -/
theorem sum_row (src : FVec Ideal S256x1000 .f32) (hφ : FKind.Formats .f32)
    (hacc : (0x00000000#32 : BitVec 32) = FKind.add.neutral .f32 hφ) (q : Fin 256) :
    multiReduction .add [1] S256 src 0x00000000#32 reduces_S256x1000_S256 hφ hacc (ix1 q) = ∑ k : Fin 1000, src (ix2 q k) :=
  (Ideal.multiReduction_add_single src 0x00000000#32 reduces_S256x1000_S256 hφ hacc (ix1 q)).trans
    (Finset.sum_congr rfl fun k _ => congrArg src (lift_row _ q k))

/-- The maximum over the columns of a 256 × 1000 array, at row q: the fold of max from −∞. -/
theorem max_row (src : FVec Ideal S256x1000 .f32) (hφ : FKind.Formats .f32)
    (hacc : (0xFF800000#32 : BitVec 32) = FKind.maximumf.neutral .f32 hφ) (q : Fin 256) :
    multiReduction .maximumf [1] S256 src 0xFF800000#32 reduces_S256x1000_S256 hφ hacc (ix1 q)
      = rowMax (fun k : Fin 1000 => src (ix2 q k)) := by
  refine (Ideal.multiReduction_maximumf_single src 0xFF800000#32 reduces_S256x1000_S256 hφ hacc (ix1 q)).trans ?_
  have hf : (src ∘ reduces_S256x1000_S256.lift (ix1 q)) = fun k : Fin 1000 => src (ix2 q k) :=
    funext fun k => congrArg src (lift_row _ q k)
  rw [hf]
  unfold rowMax
  show Finset.fold max (Ideal.ofBits .f32 0xFF800000#32) _ _ = _
  rw [ofBits_negInf]
  rfl

/-- The sum over the rows of a 256 × 1 column. -/
theorem sum_col (src : FVec Ideal S256x1 .f32) (hφ : FKind.Formats .f32)
    (hacc : (0x00000000#32 : BitVec 32) = FKind.add.neutral .f32 hφ) :
    multiReduction .add [0] S1 src 0x00000000#32 reduces_S256x1_S1 hφ hacc (ix1 (0 : Fin 1))
      = ∑ q : Fin 256, src (ix2 q (0 : Fin 1)) :=
  (Ideal.multiReduction_add_single src 0x00000000#32 reduces_S256x1_S1 hφ hacc (ix1 (0 : Fin 1))).trans
    (Finset.sum_congr rfl fun q _ => congrArg src (lift_col _ q))

/-! ## The chunk's values -/

variable (mg : FVec Ideal S1x1000 .f32) (x : Vec Ideal S256x1000 .f32) (tg : Vec Ideal S256x1 .i32)
variable (t : Fin 256 → Fin 1000) (ht : ∀ q, tg (ix2 q (0 : Fin 1)) = BitVec.ofNat 32 (t q).val)

/-- The scaled adjusted scores of row q as the specification writes them. -/
abbrev rowScore (q : Fin 256) : Fin 1000 → EReal :=
  scoreSub (Ideal.ofBits .f32 0x41F00000#32) (fun k => x (ix2 q k)) (fun k => mg (ix2 (0 : Fin 1) k)) (t q)

include ht in
/-- The mask at (q, k) is 1 exactly when k is row q's target class. -/
theorem hit_apply (q : Fin 256) (k : Fin 1000) : hit (F := Ideal) tg (ix2 q k) = if k = t q then 1#1 else 0#1 := by
  unfold hit
  show IntOp.cmpi .eq (iota .tc S256x1000 32 [1] iota_S256x1000_d1_w32 (ix2 q k))
    (broadcastTo S256x1000 (shapeCast S256x1 tg shapeCasts_S256x1_S256x1) broadcasts_S256x1_S256x1000 (ix2 q k)) = _
  rw [iota_single_apply, bcast_col, shapeCast_self, ht]
  show IntOp.cmpi .eq (BitVec.ofNat 32 k.val) (BitVec.ofNat 32 (t q).val) = _
  by_cases h : k = t q
  · subst h; rw [if_pos rfl]; simp [IntOp.cmpi]
  · rw [if_neg h]
    have hne : BitVec.ofNat 32 k.val ≠ BitVec.ofNat 32 (t q).val := fun e =>
      h (Fin.ext (ofNat_inj_of_lt (by have := k.isLt; omega) (by have := (t q).isLt; omega) e))
    show BitVec.ofBool (BitVec.ofNat 32 k.val == BitVec.ofNat 32 (t q).val) = 0#1
    rw [beq_eq_false_iff_ne.mpr hne]
    rfl

include ht in
/-- The scaled adjusted score at (q, k). -/
theorem scores_apply (q : Fin 256) (k : Fin 1000) :
    scoresOf (hit tg) mg x (ix2 q k) = rowScore mg x t q k := by
  unfold scoresOf rowScore scoreSub
  show Ideal.ofBits .f32 0x41F00000#32 * (x (ix2 q k) - Scalar.select (hit tg (ix2 q k))
      (broadcastTo S256x1000 (shapeCast S1x1000 mg shapeCasts_S1x1000_S1x1000) broadcasts_S1x1000_S256x1000 (ix2 q k))
      (Ideal.ofBits .f32 0x00000000#32)) = _
  rw [hit_apply tg t ht q k, broadcastTo_1b_ab_apply, shapeCast_self, Ideal.ofBits_zero_f32]
  by_cases h : k = t q
  · rw [if_pos h, if_pos h, select_one]
  · rw [if_neg h, if_neg h, select_zero]

/-- The masked row sum at row q: the sum over the columns of (mask ? score : 0). -/
theorem target_apply (h : IVec S256x1000 1) (sc : FVec Ideal S256x1000 .f32) (q : Fin 256) :
    targetOf h sc (ix2 q (0 : Fin 1)) = ∑ k : Fin 1000, Scalar.select (h (ix2 q k)) (sc (ix2 q k)) (0 : EReal) := by
  unfold targetOf
  rw [cast_256_col]
  refine (sum_row _ _ _ q).trans ?_
  refine Finset.sum_congr rfl fun k _ => ?_
  show Scalar.select (h (ix2 q k)) (sc (ix2 q k)) (Ideal.ofBits .f32 0x00000000#32) = _
  rw [Ideal.ofBits_zero_f32]

/-- The row maximum at row q. -/
theorem max_apply (sc : FVec Ideal S256x1000 .f32) (q : Fin 256) :
    maxOf sc (ix2 q (0 : Fin 1)) = rowMax (fun k : Fin 1000 => sc (ix2 q k)) := by
  unfold maxOf
  rw [cast_256_col]
  exact max_row _ _ _ q

/-- The row sum of exponentials at row q. -/
theorem expSum_apply (sc : FVec Ideal S256x1000 .f32) (mx : FVec Ideal S256x1 .f32) (q : Fin 256) :
    expSumOf sc mx (ix2 q (0 : Fin 1)) = ∑ k : Fin 1000, Ideal.exp (sc (ix2 q k) - mx (ix2 q (0 : Fin 1))) := by
  unfold expSumOf
  rw [cast_256_col]
  refine (sum_row _ _ _ q).trans ?_
  refine Finset.sum_congr rfl fun k _ => ?_
  show Ideal.exp (sc (ix2 q k) - broadcastTo S256x1000 mx broadcasts_S256x1_S256x1000 (ix2 q k)) = _
  rw [bcast_col]

/-- The chunk's sum of row losses. -/
theorem lossSum_apply (tv mx dn : FVec Ideal S256x1 .f32) :
    lossSumOf tv mx dn (ix2 (0 : Fin 1) (0 : Fin 1))
      = ∑ q : Fin 256, ((mx (ix2 q (0 : Fin 1)) + Ideal.log (dn (ix2 q (0 : Fin 1)))) - tv (ix2 q (0 : Fin 1))) := by
  unfold lossSumOf
  rw [cast_1_11]
  refine (sum_col _ _ _).trans ?_
  rfl

include ht in
/-- ONE CHUNK AT THE IDEAL VALUES: the sum over its 256 rows of the log-sum-exp loss of the row's adjusted scores
    against the score at the row's target. -/
theorem chunk_apply :
    chunk (F := Ideal) mg x tg (ix2 (0 : Fin 1) (0 : Fin 1))
      = ∑ q : Fin 256, lossLse (rowScore mg x t q) (rowScore mg x t q (t q)) := by
  unfold chunk
  rw [lossSum_apply]
  refine Finset.sum_congr rfl fun q _ => ?_
  have hs : (fun k : Fin 1000 => scoresOf (hit tg) mg x (ix2 q k)) = rowScore mg x t q :=
    funext fun k => scores_apply mg x tg t ht q k
  rw [max_apply, expSum_apply, max_apply, target_apply, hs]
  have htv : ∑ k : Fin 1000, Scalar.select (hit (F := Ideal) tg (ix2 q k)) (scoresOf (hit tg) mg x (ix2 q k)) (0 : EReal)
      = rowScore mg x t q (t q) := by
    rw [← sum_target (rowScore mg x t q) (t q)]
    refine Finset.sum_congr rfl fun k _ => ?_
    rw [hit_apply tg t ht q k, scores_apply mg x tg t ht q k]
    by_cases h : k = t q
    · rw [if_pos h, if_pos h, select_one]
    · rw [if_neg h, if_neg h, select_zero]
  rw [htv]
  have he : (∑ k : Fin 1000, Ideal.exp (scoresOf (hit tg) mg x (ix2 q k) - rowMax (rowScore mg x t q)))
      = ∑ k : Fin 1000, Ideal.exp (rowScore mg x t q k - rowMax (rowScore mg x t q)) :=
    Finset.sum_congr rfl fun k _ => by rw [scores_apply mg x tg t ht q k]
  rw [he]
  rfl

end Cert.KernelIdeal.Chunk

end
-- ==== Proof.KernelArrays.lean ====
/-
  The arrays the kernel's region finds and the blocks a grid point stages.

  The scores are staged from the score argument itself; the margins and the target words from two host reshapes of
  their arguments (one row, one column).  Grid point t stages rows 2048·t … 2048·t + 2047 of the scores and of the
  target words, and the whole margin row; so an entry of a staged block is an entry of an argument.
-/
import proofs.«422333_j6305011990635_3_alg».proof.Proof.KernelBlock
import proofs.«422333_j6305011990635_3_alg».proof.Proof.LdamChunkValue
import proofs.«422333_j6305011990635_3_alg».proof.Proof.LdamMean
import Idealize.ShloMosaic.Lib.Pipeline.Value
import Idealize.ShloMosaic.Lib.StableHlo.Run
import Idealize.ShloMosaic.Lib.ValueLayout
import Idealize.ShloMosaic.PureOps.Ideal.Laws

set_option maxRecDepth 16384

noncomputable section

namespace Cert.KernelIdeal.Tile

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Chunk Cert.KernelIdeal.Block Cert.Ldam

variable (m : (ℓ : Loc nD τ sig) → Buf (Elt Ideal) ℓ)

/-- The three argument arrays on core c, at their literal types. -/
abbrev X0 (c : Dev nD) : FVec Ideal SLogits .f32 := m ((c : Thread nD τ).loc main_arg0)
abbrev X1 (c : Dev nD) : FVec Ideal SMargins .f32 := m ((c : Thread nD τ).loc main_arg1)
abbrev X2 (c : Dev nD) : IVec STargets 32 := m ((c : Thread nD τ).loc main_arg2)

/-! ## The arrays the region finds -/

/-- The margins' staged array is the margins viewed as one row. -/
theorem V_margins (c : Dev nD) :
    (V m c main_v1 : S1x1000.Idx → EReal) = shapeCast S1x1000 (X1 m c) shapeCasts_S1000_S1x1000 := by
  show StableHlo.after hostOps0 (fun b => m (c, b)) (Proc.devRef .tc main_v1) = _
  after_results
  rfl

/-- The target words' staged array is the target words viewed as one column. -/
theorem V_targets (c : Dev nD) :
    (V m c main_v0 : S32768x1.Idx → BitVec 32) = shapeCast S32768x1 (X2 m c) shapeCasts_S32768_S32768x1 := by
  show StableHlo.after hostOps0 (fun b => m (c, b)) (Proc.devRef .tc main_v0) = _
  after_results
  rfl

/-- The printed index maps over the grid: the score and target windows and the output window move with the point
    along their first axis; the margin window stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

theorem point_lt (t : Fin cfg0.N) : t.val < 16 := by
  have := t.isLt; have e : cfg0.N = 16 := N_0; omega

/-- Row j of point t's score block is row 2048·t + j of the scores. -/
theorem blk0_apply (c : Dev nD) (t : Fin cfg0.N) (j : Fin 2048) (k : Fin 1000) :
    (iblk m c 0 t : Vec Ideal S2048x1000 .f32) (ix2 j k)
      = X0 m c (ix2 ⟨2048 * t.val + j.val, by have := point_lt t; omega⟩ k) := by
  unfold iblk
  rw [View.read_apply]
  show V m c main_arg0 _ = _
  rw [V_main_arg0]
  refine congrArg (m ((c : Thread nD τ).loc main_arg0)) ?_
  obtain ⟨e0, e1, -⟩ := idx_facts t
  funext a
  apply Fin.ext
  match a with
  | ⟨0, _⟩ => show win0_0.index t (0 : Fin 2) * 2048 + 1 * j.val = 2048 * t.val + j.val; rw [e0]; omega
  | ⟨1, _⟩ => show win0_0.index t (1 : Fin 2) * 1000 + 1 * k.val = k.val; rw [e1]; omega

/-- The point's margin block is the margin row. -/
theorem blk1_apply (c : Dev nD) (t : Fin cfg0.N) (k : Fin 1000) :
    (iblk m c 1 t : Vec Ideal S1x1000 .f32) (ix2 (0 : Fin 1) k) = X1 m c (ix1 k) := by
  unfold iblk
  rw [View.read_apply]
  show V m c main_v1 _ = _
  rw [V_margins]
  obtain ⟨-, -, e0, e1, -⟩ := idx_facts t
  have hi : ((cfg0.win 1).blk t).view.emb (ix2 (0 : Fin 1) k) = (ix2 (0 : Fin 1) k : S1x1000.Idx) := by
    funext a
    apply Fin.ext
    match a with
    | ⟨0, _⟩ => show win0_1.index t (0 : Fin 2) * 1 + 1 * 0 = 0; rw [e0]
    | ⟨1, _⟩ => show win0_1.index t (1 : Fin 2) * 1000 + 1 * k.val = k.val; rw [e1]; omega
  rw [hi]
  exact shapeCast_a_1a_apply (X1 m c) _ (0 : Fin 1) k

/-- Row j of point t's target block is target word 2048·t + j. -/
theorem blk2_apply (c : Dev nD) (t : Fin cfg0.N) (j : Fin 2048) :
    (iblk m c 2 t : Vec Ideal S2048x1 .i32) (ix2 j (0 : Fin 1))
      = X2 m c (ix1 ⟨2048 * t.val + j.val, by have := point_lt t; omega⟩) := by
  unfold iblk
  rw [View.read_apply]
  show V m c main_v0 _ = _
  rw [V_targets]
  obtain ⟨-, -, -, -, e0, e1, -⟩ := idx_facts t
  refine shapeCast_apply (X2 m c) _ _ _ ?_
  rw [Shape.rowMajor_val_one, Shape.rowMajor_val_two]
  show 2048 * t.val + j.val = (win0_2.index t (0 : Fin 2) * 2048 + 1 * j.val) * 1 + (win0_2.index t (1 : Fin 2) * 1 + 1 * 0)
  rw [e0, e1]
  omega

end Cert.KernelIdeal.Tile

end
-- ==== Proof.KernelTile.lean ====
/-
  The kernel's sixteen partial sums.

  With the staged blocks read as entries of the arguments, one chunk of grid point t's block is the sum of 256
  consecutive rows' losses, and the point's block total is the sum of its eight chunks, i.e. of tile t's 2048 rows.
  This is where the precondition is used: the target words name classes (so the kernel's mask has its one hit per
  row), and the scores and margins are finite (so the kernel's log-sum-exp form of a row's loss is the reference's
  negated log-softmax).
-/
import proofs.«422333_j6305011990635_3_alg».proof.Proof.KernelArrays
import proofs.«422333_j6305011990635_3_alg».proof.Proof.LdamChunkValue
import proofs.«422333_j6305011990635_3_alg».proof.Proof.LdamMean
import Idealize.ShloMosaic.Lib.Pipeline.Value
import Idealize.ShloMosaic.Lib.StableHlo.Run
import Idealize.ShloMosaic.Lib.ValueLayout
import Idealize.ShloMosaic.PureOps.Ideal.Laws

set_option maxRecDepth 16384

noncomputable section

namespace Cert.KernelIdeal.Tile

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Chunk Cert.KernelIdeal.Block Cert.Ldam

variable (m : (ℓ : Loc nD τ sig) → Buf (Elt Ideal) ℓ)

/-! ## One chunk of a tile, and the tile -/

section Values
variable (x : FVec Ideal SLogits .f32) (mg : FVec Ideal SMargins .f32) (tg : IVec STargets 32)

/-- The sum of the losses of rows 2048·t + o … 2048·t + o + 255. -/
def chunkRows (t : Fin cfg0.N) (o : Nat) (ho : o + 256 ≤ 2048) : EReal :=
  ∑ q : Fin 256, rowLoss x mg tg ⟨2048 * t.val + o + q.val, by have := point_lt t; have := q.isLt; omega⟩

/-- The sum of tile t's 2048 rows' losses, chunk by chunk from zero. -/
def tileTotal (t : Fin cfg0.N) : EReal :=
  (((((((((0 : EReal) + chunkRows x mg tg t 0 (by decide)) + chunkRows x mg tg t 256 (by decide)) + chunkRows x mg tg t 512 (by decide)) + chunkRows x mg tg t 768 (by decide)) + chunkRows x mg tg t 1024 (by decide)) + chunkRows x mg tg t 1280 (by decide)) + chunkRows x mg tg t 1536 (by decide)) + chunkRows x mg tg t 1792 (by decide))

end Values

variable (hx : ∀ c i, ∃ a : ℝ, X0 m c i = a) (hm : ∀ c i, ∃ a : ℝ, X1 m c i = a)
variable (hT : ∀ c (r : Fin 32768), (X2 m c (ix1 r)).toNat < 1000)

include hx hm hT in
/-- ONE CHUNK of point t's block is the sum of its 256 rows' losses. -/
theorem chunk_tile (c : Dev nD) (t : Fin cfg0.N) (o : Nat) (ho : o + 256 ≤ 2048) :
    chunk (F := Ideal) (k0_pay2 (iblk m c 1 t)) (rowsAt (iblk m c 0 t) o ho) (wordsAt (iblk m c 2 t) o ho)
        (ix2 (0 : Fin 1) (0 : Fin 1))
      = chunkRows (X0 m c) (X1 m c) (X2 m c) t o ho := by
  -- the row of the arguments that chunk position q is
  let row : Fin 256 → Fin 32768 := fun q => ⟨2048 * t.val + o + q.val, by have := point_lt t; have := q.isLt; omega⟩
  have hw : ∀ q : Fin 256, wordsAt (iblk m c 2 t) o ho (ix2 q (0 : Fin 1))
      = BitVec.ofNat 32 (classOf (X2 m c) (row q)).val := fun q => by
    have e : wordsAt (iblk m c 2 t) o ho (ix2 q (0 : Fin 1))
        = (iblk m c 2 t : Vec Ideal S2048x1 .i32) (ix2 (⟨o + q.val, by have := q.isLt; omega⟩ : Fin 2048) (0 : Fin 1)) := by
      unfold wordsAt
      refine congrArg (iblk m c 2 t : Vec Ideal S2048x1 .i32) ?_
      funext a; apply Fin.ext
      match a with
      | ⟨0, _⟩ => show o + 1 * q.val = o + q.val; omega
      | ⟨1, _⟩ => show 0 + 1 * 0 = 0; rfl
    rw [e, blk2_apply]
    have hr : (⟨2048 * t.val + (o + q.val), by have := point_lt t; have := q.isLt; omega⟩ : Fin 32768) = row q :=
      Fin.ext (by show 2048 * t.val + (o + q.val) = 2048 * t.val + o + q.val; omega)
    rw [hr]
    exact word_eq_class (X2 m c) (row q) (hT c (row q))
  rw [chunk_apply (k0_pay2 (iblk m c 1 t)) (rowsAt (iblk m c 0 t) o ho) (wordsAt (iblk m c 2 t) o ho)
    (fun q => classOf (X2 m c) (row q)) hw]
  unfold chunkRows
  refine Finset.sum_congr rfl fun q _ => ?_
  have hs : rowScore (k0_pay2 (iblk m c 1 t)) (rowsAt (iblk m c 0 t) o ho) (fun q => classOf (X2 m c) (row q)) q
      = scoreSub (Ideal.ofBits .f32 0x41F00000#32) (rowOf (X0 m c) (row q)) (marginOf (X1 m c)) (classOf (X2 m c) (row q)) := by
    unfold rowScore
    have h1 : (fun k : Fin 1000 => rowsAt (iblk m c 0 t) o ho (ix2 q k)) = rowOf (X0 m c) (row q) := by
      funext k
      have e : rowsAt (iblk m c 0 t) o ho (ix2 q k)
          = (iblk m c 0 t : Vec Ideal S2048x1000 .f32) (ix2 (⟨o + q.val, by have := q.isLt; omega⟩ : Fin 2048) k) := by
        unfold rowsAt
        refine congrArg (iblk m c 0 t : Vec Ideal S2048x1000 .f32) ?_
        funext a; apply Fin.ext
        match a with
        | ⟨0, _⟩ => show o + 1 * q.val = o + q.val; omega
        | ⟨1, _⟩ => show 0 + 1 * k.val = k.val; omega
      rw [e, blk0_apply]
      have hr : (⟨2048 * t.val + (o + q.val), by have := point_lt t; have := q.isLt; omega⟩ : Fin 32768) = row q :=
        Fin.ext (by show 2048 * t.val + (o + q.val) = 2048 * t.val + o + q.val; omega)
      rw [hr]
    have h2 : (fun k : Fin 1000 => k0_pay2 (F := Ideal) (iblk m c 1 t) (ix2 (0 : Fin 1) k)) = marginOf (X1 m c) := by
      funext k
      show shapeCast S1x1000 (iblk m c 1 t) shapeCasts_S1x1000_S1x1000 (ix2 (0 : Fin 1) k) = _
      exact (congrFun (shapeCast_self (s := S1x1000) (iblk m c 1 t : Vec Ideal S1x1000 .f32) shapeCasts_S1x1000_S1x1000)
        (ix2 (0 : Fin 1) k)).trans (blk1_apply m c t k)
    rw [h1, h2]
  rw [hs]
  exact lse_eq_rowLoss (X0 m c) (X1 m c) (X2 m c) (row q) (hx c) (hm c)

include hx hm hT in
/-- THE BLOCK'S TOTAL at point t is the tile's total. -/
theorem blockTotal_apply (c : Dev nD) (t : Fin cfg0.N) :
    blockTotal (F := Ideal) (iblk m c 0 t) (iblk m c 1 t) (iblk m c 2 t) (ix2 (0 : Fin 1) (0 : Fin 1))
      = tileTotal (X0 m c) (X1 m c) (X2 m c) t := by
  have h0 : zero11 (F := Ideal) (ix2 (0 : Fin 1) (0 : Fin 1)) = (0 : EReal) := Ideal.ofBits_zero_f32
  have c0 := chunk_tile m hx hm hT c t 0 (by decide)
  have c1 := chunk_tile m hx hm hT c t 256 (by decide)
  have c2 := chunk_tile m hx hm hT c t 512 (by decide)
  have c3 := chunk_tile m hx hm hT c t 768 (by decide)
  have c4 := chunk_tile m hx hm hT c t 1024 (by decide)
  have c5 := chunk_tile m hx hm hT c t 1280 (by decide)
  have c6 := chunk_tile m hx hm hT c t 1536 (by decide)
  have c7 := chunk_tile m hx hm hT c t 1792 (by decide)
  unfold blockTotal tileTotal
  rw [addf_apply, addf_apply, addf_apply, addf_apply, addf_apply, addf_apply, addf_apply, addf_apply]
  rw [h0, c0, c1, c2, c3, c4, c5, c6, c7]

end Cert.KernelIdeal.Tile

end
-- ==== Proof.KernelRun.lean ====
/-
  The kernel's run, read: the array of partial sums after the region, the host's sum and division after it, and the
  result.

  Point t writes back its block's total into block t of the 16 × 1 × 1 array of partial sums; the sixteen blocks are
  the sixteen entries, so the array ends holding, at t, the sum of tile t's 2048 rows' losses.  The host then adds the
  sixteen entries to zero and divides by 32768.  The sixteen tiles of eight chunks of 256 rows are the 32768 rows, each
  once, so the result is the mean of the rows' losses.
-/
import proofs.«422333_j6305011990635_3_alg».proof.Proof.KernelTile

set_option maxRecDepth 16384

noncomputable section

namespace Cert.KernelIdeal.Tile

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Chunk Cert.KernelIdeal.Block Cert.Ldam

variable (m : (ℓ : Loc nD τ sig) → Buf (Elt Ideal) ℓ) (ρ : Dev nD → PrngReg)

/-- The array of partial sums: at t, tile t's total. -/
def partials (c : Dev nD) : S16x1x1.Idx → EReal := fun i =>
  tileTotal (X0 m c) (X1 m c) (X2 m c)
    ⟨(i 0).val, by have h : (i 0).val < 16 := (i 0).isLt; have e : cfg0.N = 16 := N_0; omega⟩

variable (hx : ∀ c i, ∃ a : ℝ, X0 m c i = a) (hm : ∀ c i, ∃ a : ℝ, X1 m c i = a)
variable (hT : ∀ c (r : Fin 32768), (X2 m c (ix1 r)).toNat < 1000)

include hx hm hT in
/-- WHAT POINT t WRITES BACK is block t of the array of partial sums. -/
theorem flushed_eq (c : Dev nD) (t : Fin cfg0.N) :
    (dats m 0 c).flushed 3 t = ((cfg0.win 3).blk t).view.read (Elt Ideal) (partials m c) := by
  show (cfg0.win 3).cut (grid0.coords t) ((dats m 0 c).after 3 t) = _
  rw [after0_3]
  unfold outsAt0
  rw [out_eq]
  obtain ⟨-, -, -, -, -, -, e0, e1, e2⟩ := idx_facts t
  funext y
  have hy : y = (ix3 (0 : Fin 1) (0 : Fin 1) (0 : Fin 1) : S1x1x1.Idx) := by
    funext a; apply Fin.ext
    match a with
    | ⟨0, _⟩ => have h : (y 0).val < 1 := (y 0).isLt; show (y 0).val = 0; omega
    | ⟨1, _⟩ => have h : (y 1).val < 1 := (y 1).isLt; show (y 1).val = 0; omega
    | ⟨2, _⟩ => have h : (y 2).val < 1 := (y 2).isLt; show (y 2).val = 0; omega
  subst hy
  show shapeCast S1x1x1 (blockTotal (F := Ideal) (iblk m c 0 t) (iblk m c 1 t) (iblk m c 2 t)) shapeCasts_S1x1_S1x1x1
      (ix3 (0 : Fin 1) (0 : Fin 1) (0 : Fin 1))
    = partials m c (((cfg0.win 3).blk t).view.emb (ix3 (0 : Fin 1) (0 : Fin 1) (0 : Fin 1)))
  rw [cast_11_111, blockTotal_apply m hx hm hT c t]
  unfold partials
  refine congrArg (tileTotal (X0 m c) (X1 m c) (X2 m c)) (Fin.ext ?_)
  show t.val = win0_3.index t (0 : Fin 3) * 1 + 1 * 0
  rw [e0]; omega

/-- An index of the array of partial sums is in point t's block iff each coordinate is in the block's range. -/
theorem mem_blk (t : Fin cfg0.N) (i : S16x1x1.Idx) :
    i ∈ ((cfg0.win 3).blk t).view.set
      ↔ ∀ a : Fin 3, win0_3.index t a * S1x1x1.size a ≤ (i a).val ∧ (i a).val < win0_3.index t a * S1x1x1.size a + S1x1x1.size a := by
  show i ∈ ((View.whole main_v2).slice (win0_3.rect t)).set ↔ _
  rw [View.set_slice_whole, Rect.mem_set_unit]
  exact Iff.rfl

include hx hm hT in
/-- THE ARRAY OF PARTIAL SUMS after the run. -/
theorem final_partials (c : Dev nD) : (dats m 0 c).arrAt 3 cfg0.N = partials m c :=
  (dats m 0 c).arrAt_eq_of_cover 3 (partials m c) (fun t _ => flushed_eq m hx hm hT c t) fun i => by
    have hi0 : (i 0).val < 16 := (i 0).isLt
    have hi1 : (i 1).val < 1 := (i 1).isLt
    have hi2 : (i 2).val < 1 := (i 2).isLt
    have eN : cfg0.N = 16 := N_0
    let t : Fin cfg0.N := ⟨(i 0).val, by omega⟩
    obtain ⟨-, -, -, -, -, -, e0, e1, e2⟩ := idx_facts t
    refine ⟨t, flush0_3 t, ?_⟩
    rw [mem_blk]
    intro a
    match a with
    | ⟨0, _⟩ => show win0_3.index t (0 : Fin 3) * 1 ≤ (i 0).val ∧ (i 0).val < win0_3.index t (0 : Fin 3) * 1 + 1
                rw [e0]; show (i 0).val * 1 ≤ (i 0).val ∧ (i 0).val < (i 0).val * 1 + 1; omega
    | ⟨1, _⟩ => show win0_3.index t (1 : Fin 3) * 1 ≤ (i 1).val ∧ (i 1).val < win0_3.index t (1 : Fin 3) * 1 + 1
                rw [e1]; omega
    | ⟨2, _⟩ => show win0_3.index t (2 : Fin 3) * 1 ≤ (i 2).val ∧ (i 2).val < win0_3.index t (2 : Fin 3) * 1 + 1
                rw [e2]; omega

/-! ## The host's sum of the partial sums -/

/-- The sixteen entries of the array of partial sums are the sixteen tiles. -/
def tileEquiv : S16x1x1.Idx ≃ Fin 16 where
  toFun j := ⟨(j 0).val, (j 0).isLt⟩
  invFun t := ix3 t (0 : Fin 1) (0 : Fin 1)
  left_inv j := by
    funext a; apply Fin.ext
    match a with
    | ⟨0, _⟩ => rfl
    | ⟨1, _⟩ => have h : (j 1).val < 1 := (j 1).isLt; show 0 = (j 1).val; omega
    | ⟨2, _⟩ => have h : (j 2).val < 1 := (j 2).isLt; show 0 = (j 2).val; omega
  right_inv t := rfl

/-- A tile's total is the sum over its eight chunks of the chunk's 256 rows' losses. -/
theorem tileTotal_eq (x : FVec Ideal SLogits .f32) (mg : FVec Ideal SMargins .f32) (tg : IVec STargets 32) (t : Fin cfg0.N) :
    tileTotal x mg tg t
      = ∑ cc : Fin 8, ∑ q : Fin 256, rowLoss x mg tg
          ⟨2048 * t.val + 256 * cc.val + q.val, by have := point_lt t; have := cc.isLt; have := q.isLt; omega⟩ := by
  rw [Fin.sum_univ_eight]
  unfold tileTotal chunkRows
  rw [zero_add]
  rfl

/-- The partial sums add up to the sum of all the rows' losses. -/
theorem sum_partials (c : Dev nD) :
    ∑ j : S16x1x1.Idx, partials m c j = ∑ r : Fin 32768, rowLoss (X0 m c) (X1 m c) (X2 m c) r := by
  rw [← sum_tiles, ← Equiv.sum_comp tileEquiv.symm]
  refine Finset.sum_congr rfl fun t _ => ?_
  unfold partials
  rw [tileTotal_eq]
  rfl

include hx hm hT in
/-- THE KERNEL'S RESULT after the host's sum and division is the mean loss. -/
theorem result_eq (c : Dev nD) :
    Pipeline.afterTail₀ cfgs (dats m) 0 (V0 m) [hostOps1] c main_v4 = meanLoss (X0 m c) (X1 m c) (X2 m c) := by
  unfold Pipeline.afterTail₀
  show StableHlo.after hostOps1 _ (Proc.devRef .tc main_v4) = _
  after_results
  have hW : Pipeline.withArrays (cfgs 0).spec c (V0 m c) (fun w => (dats m 0 c).arrAt w (cfgs 0).N)
      (Proc.devRef .tc main_v2) = partials m c :=
    (Pipeline.withArrays_arr spec0 launch0.win.arr_inj c (V0 m c) (fun w => (dats m 0 c).arrAt w (cfgs 0).N) 3).trans
      (final_partials m hx hm hT c)
  rw [hW]
  funext i
  unfold meanLoss
  show Ideal.div (Ideal.hostReduceAdd reducesTo_S16x1x1_S_d0_1_2 (partials m c) (Ideal.ofBits .f32 0x00000000#32) i)
    (Ideal.ofBits .f32 0x47000000#32) = _
  rw [Ideal.hostReduceAdd_total reducesTo_S16x1x1_S_d0_1_2 (fun b => b.elim0), sum_partials]

include hx hm hT in
/-- THE KERNEL'S RUN, READ: every weakly fair execution terminates with the result at the mean loss and the three
    argument arrays as they were. -/
theorem run : θ_run defs (onTc (τ := τ) (main (F := Ideal))) ⟨m, fun _ => 0, ρ⟩ (fun r => ∀ c : Dev nD,
      r.2.mem ((c.tc : Thread nD τ).loc main_v4) = meanLoss (X0 m c) (X1 m c) (X2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v4 (Pipeline.mem_restRefs_of main_v4 (by decide) (by decide))).trans (result_eq m hx hm hT c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Tile

end
-- ==== Proof.LdamPre.lean ====
/-
  The precondition read back.

  The stated precondition is a conjunction of four "for all" tests: every score is below +∞ in absolute value, every
  margin is, every target word is at least 0 and every target word is below 1000 (both read signed).  Each test is a
  fold of "and" over a compared array that came out 1, so each compared element is 1.  An extended real whose
  absolute value max x (−x) is strictly below +∞ is neither infinity, hence a real number; a 32-bit word that is at
  least 0 and below 1000 as a signed number is below 1000 as a natural number.
-/
import proofs.«422333_j6305011990635_3_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Ldam.Pre

open Idealize.ShloMosaic Cert.Pre_finite_inputs

/-- The pattern of +∞ denotes the top element. -/
theorem ofBits_posInf : Ideal.ofBits .f32 0x7F800000#32 = (⊤ : EReal) := by
  simp [Ideal.ofBits, Ideal.ieee]

/-- An extended real whose absolute value is strictly below +∞ is a real number. -/
theorem real_of_abs_lt_inf (x : EReal)
    (h : Ideal.cmp .olt (max x (-x)) (Ideal.ofBits .f32 0x7F800000#32) = 1#1) : ∃ r : ℝ, x = r := by
  rw [ofBits_posInf] at h
  induction x using EReal.rec with
  | bot => simp [Ideal.cmp] at h
  | coe r => exact ⟨r, rfl⟩
  | top => simp [Ideal.cmp] at h

/-- A word that is at least 0 and below 1000, both as signed numbers, is below 1000 as a natural number. -/
theorem word_lt_of_signed (t : BitVec 32) (h0 : IntOp.cmpi .sge t 0#32 = 1#1) (h1 : IntOp.cmpi .slt t 1000#32 = 1#1) :
    t.toNat < 1000 := by
  have hb : ∀ b : Bool, BitVec.ofBool b = 1#1 ↔ b = true := by decide
  unfold IntOp.cmpi at h0 h1
  rw [hb] at h0 h1
  simp only [BitVec.slt, BitVec.sle, decide_eq_true_eq] at h0 h1
  have e0 : (0#32 : BitVec 32).toInt = 0 := by decide
  have e1 : (1000#32 : BitVec 32).toInt = 1000 := by decide
  rw [e0] at h0
  rw [e1] at h1
  have h32 := t.isLt
  rw [BitVec.toInt_eq_toNat_cond] at h0 h1
  split at h0 <;> omega

variable [Cert.Pre_finite_inputs.Facts]

/-- The rank-0 result of each test has one index. -/
instance : Subsingleton S_.Idx := ⟨fun _ _ => funext fun d => d.elim0⟩

/-- THE PRECONDITION DECODED: every score and every margin is a real number, and every target word is below 1000
    as a natural number (so it names one of the 1000 classes). -/
theorem decode (x0 : FVec Ideal S32768x1000 .f32) (x1 : FVec Ideal S1000 .f32) (x2 : IVec S32768 32)
    (h : fn (F := Ideal) x0 x1 x2 = fun _ => 1#1) :
    (∀ i, ∃ r : ℝ, x0 i = r) ∧ (∀ i, ∃ r : ℝ, x1 i = r) ∧ (∀ i, (x2 i).toNat < 1000) := by
  have h' := congrFun h ValueIdx.ix0
  unfold fn fn_part1 at h'
  dsimp only at h'
  obtain ⟨h123, h4⟩ := IntOp.andi_eq_one.mp h'
  obtain ⟨h12, h3⟩ := IntOp.andi_eq_one.mp h123
  obtain ⟨h1, h2⟩ := IntOp.andi_eq_one.mp h12
  refine ⟨fun i => ?_, fun i => ?_, fun i => ?_⟩
  · exact real_of_abs_lt_inf (x0 i) (Host.reduce_andi_all _ _ _ _ _ h1 i)
  · exact real_of_abs_lt_inf (x1 i) (Host.reduce_andi_all _ _ _ _ _ h2 i)
  · exact word_lt_of_signed (x2 i) (Host.reduce_andi_all _ _ _ _ _ h3 i) (Host.reduce_andi_all _ _ _ _ _ h4 i)

end Cert.Ldam.Pre

end
-- ==== Proof.lean ====
/-
  The margin-adjusted cross-entropy ("LDAM") loss: a tiled kernel against its reference, equal over the extended reals.

  Inputs: scores x (32768 × 1000), one margin m k per class (1000), one target word per row (32768).  Row r's scaled
  adjusted scores are s k = 30 · (x (r, k) − [k = t r] · m k) with t r the class the target word names; its loss is the
  negated log-softmax of s at t r; the result is the mean of the 32768 losses.

  The reference takes the margin off by an accumulating scatter at the index pairs (r, t r), forms log-softmax row by
  row (shifted by the row maximum) and gathers it at (r, t r).  The kernel walks the rows in 16 tiles of 8 chunks of
  256: with a mask "column = target word" it subtracts the masked margin, reads the target's score as the masked row
  sum, and forms the row's loss as (M + log ∑ exp (s − M)) − s (t r); each tile writes one partial sum, which the host
  adds up and divides by 32768.

  The two agree on the stated domain.  The target words must name classes (0 ≤ word < 1000): otherwise the reference's
  wrap-around, clamped gathers and dropped scatter read other entries than the kernel's empty mask does.  The scores and
  margins must be finite: the two arrangements of a row's loss, (M + L) − a and −((a − M) − L), agree on reals and
  differ at infinities.  Given both, every scaled score is a real, so is the row maximum, the sum of exponentials is a
  positive real, and the identity is ring arithmetic; the sums are the same 32768 terms in two groupings.

  The three frames are the programs' runs with the result dropped; the idealization rewrote nothing, so "preserves" is
  trivially true.
-/
import proofs.«422333_j6305011990635_3_alg».proof.Defs
import proofs.«422333_j6305011990635_3_alg».proof.Proof.Gen.Kernel
import proofs.«422333_j6305011990635_3_alg».proof.Proof.Gen.Kernel.Skeleton
import proofs.«422333_j6305011990635_3_alg».proof.Proof.Gen.Kernel.Launch
import proofs.«422333_j6305011990635_3_alg».proof.Proof.Gen.Kernel.Points
import proofs.«422333_j6305011990635_3_alg».proof.Proof.Gen.Kernel.Frame
import proofs.«422333_j6305011990635_3_alg».proof.Proof.Gen.KernelIdeal
import proofs.«422333_j6305011990635_3_alg».proof.Proof.Gen.KernelIdeal.Skeleton
import proofs.«422333_j6305011990635_3_alg».proof.Proof.Gen.KernelIdeal.Launch
import proofs.«422333_j6305011990635_3_alg».proof.Proof.Gen.KernelIdeal.Points
import proofs.«422333_j6305011990635_3_alg».proof.Proof.Gen.KernelIdeal.Frame
import proofs.«422333_j6305011990635_3_alg».proof.Proof.Gen.ReferenceIdeal
import proofs.«422333_j6305011990635_3_alg».proof.Proof.Gen.Pre_finite_inputs
import proofs.«422333_j6305011990635_3_alg».proof.Proof.RefRunPatched
import proofs.«422333_j6305011990635_3_alg».proof.Proof.RefValue
import proofs.«422333_j6305011990635_3_alg».proof.Proof.KernelRun
import proofs.«422333_j6305011990635_3_alg».proof.Proof.LdamPre
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the mean of the rows' losses of the shared arguments. -/
theorem algebraic : Cert.algebraic_KernelIdeal_ReferenceIdeal := by
  intro m ρ m' ρ' hpre hagree
  have hd := fun c => Cert.Ldam.Pre.decode _ _ _ (hpre c)
  refine ⟨fun c => Cert.Ldam.meanLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact Cert.KernelIdeal.Tile.run m ρ (fun c => (hd c).1) (fun c => (hd c).2.1) (fun c r => (hd c).2.2 (ix1 r))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v42_eq,
      Cert.ReferenceIdeal.RefValue.v42_eq_meanLoss _ _ _ (fun r => by rw [(hagree c).2.2]; exact (hd c).2.2 (ix1 r)),
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
